-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x5 : Shape := ⟨2, ![4000000, 5]⟩
abbrev S4000000 : Shape := ⟨1, ![4000000]⟩
abbrev S_ : Shape := ⟨0, ![]⟩

class Facts : Prop where
  bcast_S_S4000000x5 : S_.BroadcastsInDim S4000000x5 (![] : Fin 0 → Fin S4000000x5.rank)
  reducesTo_S4000000x5_S_d0_1 : S4000000x5.ReducesTo [0, 1] S_
  h_S_ : 0 < S_.numel
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x5 .f32) (main_arg1 : FVec F S4000000x5 .f32) (main_arg2 : FVec F S4000000 .f32) (main_arg3 : IVec S4000000 32) : IVec S_ 1 :=
  let main_v0 : FVec F S4000000x5 .f32 := Host.absf main_arg0
  let main_cst : FVec F S_ .f32 := constant S_ .f32 0x7F800000#32
  let main_v1 : FVec F S4000000x5 .f32 := broadcastInDim S4000000x5 ![] bcast_S_S4000000x5 main_cst
  let main_v2 : IVec S4000000x5 1 := cmpf .olt main_v0 main_v1
  let main_c : IVec S_ 1 := constantI S_ 1 1#1
  let main_v3 : IVec S_ 1 := (fun x v => Host.reduce IntOp.andi x v reducesTo_S4000000x5_S_d0_1 h_S_) main_v2 main_c
  let main_v4 : FVec F S4000000x5 .f32 := Host.absf main_arg1
  let main_cst_0 : FVec F S_ .f32 := constant S_ .f32 0x7F800000#32
  let main_v5 : FVec F S4000000x5 .f32 := broadcastInDim S4000000x5 ![] bcast_S_S4000000x5 main_cst_0
  let main_v6 : IVec S4000000x5 1 := cmpf .olt main_v4 main_v5
  let main_c_1 : IVec S_ 1 := constantI S_ 1 1#1
  let main_v7 : IVec S_ 1 := (fun x v => Host.reduce IntOp.andi x v reducesTo_S4000000x5_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  main_v13
-- ==== Kernel.lean ====
abbrev S4000000x5 : Shape := ⟨2, ![4000000, 5]⟩
abbrev S4000000 : Shape := ⟨1, ![4000000]⟩
abbrev S4000000x2 : Shape := ⟨2, ![4000000, 2]⟩
abbrev S8000000 : Shape := ⟨1, ![8000000]⟩
abbrev S2x31250x128 : Shape := ⟨3, ![2, 31250, 128]⟩
abbrev S31250x128 : Shape := ⟨2, ![31250, 128]⟩
abbrev S2x2048x128 : Shape := ⟨3, ![2, 2048, 128]⟩
abbrev S2048x128 : Shape := ⟨2, ![2048, 128]⟩
abbrev S1x2048x128 : Shape := ⟨3, ![1, 2048, 128]⟩
abbrev S_ : Shape := ⟨0, ![]⟩
abbrev S500 : Shape := ⟨1, ![500]⟩
abbrev S4000000x1 : Shape := ⟨2, ![4000000, 1]⟩

abbrev nBuf : Space → Nat
  | .hbm => 31
  | .vmem => 8
  | .smem => 0
  | _ => 0

abbrev bufTy : (tb : Table) → Fin (tcTables nBuf tb) → BufTy
  | .hbm, ⟨0, _⟩ => ⟨S4000000x5, .f32⟩
  | .hbm, ⟨1, _⟩ => ⟨S4000000x5, .f32⟩
  | .hbm, ⟨2, _⟩ => ⟨S4000000, .f32⟩
  | .hbm, ⟨3, _⟩ => ⟨S4000000, .i32⟩
  | .hbm, ⟨4, _⟩ => ⟨S4000000x2, .f32⟩
  | .hbm, ⟨5, _⟩ => ⟨S8000000, .f32⟩
  | .hbm, ⟨6, _⟩ => ⟨S4000000x2, .f32⟩
  | .hbm, ⟨7, _⟩ => ⟨S8000000, .f32⟩
  | .hbm, ⟨8, _⟩ => ⟨S2x31250x128, .f32⟩
  | .hbm, ⟨9, _⟩ => ⟨S2x31250x128, .f32⟩
  | .hbm, ⟨10, _⟩ => ⟨S31250x128, .f32⟩
  | .hbm, ⟨11, _⟩ => ⟨S31250x128, .f32⟩
  | .hbm, ⟨12, _⟩ => ⟨S4000000, .f32⟩
  | .hbm, ⟨13, _⟩ => ⟨S_, .f32⟩
  | .hbm, ⟨14, _⟩ => ⟨S500, .f32⟩
  | .hbm, ⟨15, _⟩ => ⟨S4000000x1, .i32⟩
  | .hbm, ⟨16, _⟩ => ⟨S500, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S500, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S2x2048x128, .f32⟩
  | .local _ .vmem, ⟨1, _⟩ => ⟨S2x2048x128, .f32⟩
  | .local _ .vmem, ⟨2, _⟩ => ⟨S2x2048x128, .f32⟩
  | .local _ .vmem, ⟨3, _⟩ => ⟨S2x2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S4000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4000000x5_S4000000x2_0_0 : S4000000x5.Slices ![0, 0] S4000000x2
  shapeCasts_S4000000x2_S8000000 : S4000000x2.ShapeCasts S8000000
  shapeCasts_S8000000_S2x31250x128 : S8000000.ShapeCasts S2x31250x128
  shapeCasts_S4000000_S31250x128 : S4000000.ShapeCasts S31250x128
  inb_S2x2048x128_S1x2048x128_0_0_0 : ∀ a, (![0, 0, 0] : Fin 3 → Nat) a + S1x2048x128.size a ≤ S2x2048x128.size a
  h_S1x2048x128 : 0 < S1x2048x128.numel
  shapeCasts_S1x2048x128_S2048x128 : S1x2048x128.ShapeCasts S2048x128
  inb_S2x2048x128_S1x2048x128_1_0_0 : ∀ a, (![1, 0, 0] : Fin 3 → Nat) a + S1x2048x128.size a ≤ S2x2048x128.size a
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S31250x128_S4000000 : S31250x128.ShapeCasts S4000000
  bcast_S_S500 : S_.BroadcastsInDim S500 (![] : Fin 0 → Fin S500.rank)
  bcast_S4000000_S4000000x1_0 : S4000000.BroadcastsInDim S4000000x1 (![0] : Fin 1 → Fin S4000000x1.rank)
  reducesTo_S500_S_d0 : S500.ReducesTo [0] S_
  h_S_ : 0 < S_.numel
  scatter_S500_S4000000x1_S4000000_n_0_0_1_wf : ScatterDims.WF S500 S4000000x1 S4000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2x2048x128.size a < S2x31250x128.size a
  hwx0_0 : ∀ i : grid0.Coords, EltTy.bits .f32 = 32 ∨ (Rect.unit (s := S2x31250x128) (fun a => cc0_transform_0 i a * S2x2048x128.size a) (fun a => (Pipeline.Clip.of (cc0_transform_0 i a) (S2x2048x128.size a) (S2x31250x128.size a)).extent (S2x2048x128.size a)) fun a => Pipeline.Clip.inb (Pipeline.Clip.ok_of (hstart0_0 i a))).WholeWords (EltTy.packing .f32)
  hwxs0_0 : ∀ i : grid0.Coords, EltTy.bits .f32 = 32 ∨ (Rect.unit (s := S2x2048x128) (fun _ => 0) (fun a => (Pipeline.Clip.of (cc0_transform_0 i a) (S2x2048x128.size a) (S2x31250x128.size a)).extent (S2x2048x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2x2048x128.size a < S2x31250x128.size a
  hwx0_1 : ∀ i : grid0.Coords, EltTy.bits .f32 = 32 ∨ (Rect.unit (s := S2x31250x128) (fun a => cc0_transform_1 i a * S2x2048x128.size a) (fun a => (Pipeline.Clip.of (cc0_transform_1 i a) (S2x2048x128.size a) (S2x31250x128.size a)).extent (S2x2048x128.size a)) fun a => Pipeline.Clip.inb (Pipeline.Clip.ok_of (hstart0_1 i a))).WholeWords (EltTy.packing .f32)
  hwxs0_1 : ∀ i : grid0.Coords, EltTy.bits .f32 = 32 ∨ (Rect.unit (s := S2x2048x128) (fun _ => 0) (fun a => (Pipeline.Clip.of (cc0_transform_1 i a) (S2x2048x128.size a) (S2x31250x128.size a)).extent (S2x2048x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x128.size a < S31250x128.size a
  hwx0_2 : ∀ i : grid0.Coords, EltTy.bits .f32 = 32 ∨ (Rect.unit (s := S31250x128) (fun a => cc0_transform_2 i a * S2048x128.size a) (fun a => (Pipeline.Clip.of (cc0_transform_2 i a) (S2048x128.size a) (S31250x128.size a)).extent (S2048x128.size a)) fun a => Pipeline.Clip.inb (Pipeline.Clip.ok_of (hstart0_2 i a))).WholeWords (EltTy.packing .f32)
  hwxs0_2 : ∀ i : grid0.Coords, EltTy.bits .f32 = 32 ∨ (Rect.unit (s := S2048x128) (fun _ => 0) (fun a => (Pipeline.Clip.of (cc0_transform_2 i a) (S2048x128.size a) (S31250x128.size a)).extent (S2048x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2048x128.size a < S31250x128.size a
  hwx0_3 : ∀ i : grid0.Coords, EltTy.bits .f32 = 32 ∨ (Rect.unit (s := S31250x128) (fun a => cc0_transform_3 i a * S2048x128.size a) (fun a => (Pipeline.Clip.of (cc0_transform_3 i a) (S2048x128.size a) (S31250x128.size a)).extent (S2048x128.size a)) fun a => Pipeline.Clip.inb (Pipeline.Clip.ok_of (hstart0_3 i a))).WholeWords (EltTy.packing .f32)
  hwxs0_3 : ∀ i : grid0.Coords, EltTy.bits .f32 = 32 ∨ (Rect.unit (s := S2048x128) (fun _ => 0) (fun a => (Pipeline.Clip.of (cc0_transform_3 i a) (S2048x128.size a) (S31250x128.size a)).extent (S2048x128.size a)) fun a => (Nat.zero_add _).trans_le (Pipeline.Clip.extent_le (Pipeline.Clip.ok_of (hstart0_3 i a)))).WholeWords (EltTy.packing .f32)

variable [Facts₀]

def scatter_S500_S4000000x1_S4000000_n_0_0_1 : ScatterDims S500 S4000000x1 S4000000 where
  updateWindowDims := []
  insertedWindowDims := [0]
  scatterDimsToOperandDims := [0]
  indexVectorDim := 1
  wf := scatter_S500_S4000000x1_S4000000_n_0_0_1_wf

abbrev win0_0 : Pipeline.Window sig grid0 :=
  Pipeline.Window.ofSpecClip (Memref.whole main_v4) S2x2048x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v5) S2x2048x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v6) S2048x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v7) S2048x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4000000x5 : Shape := ⟨2, ![4000000, 5]⟩
abbrev S4000000 : Shape := ⟨1, ![4000000]⟩
abbrev S2 : Shape := ⟨1, ![2]⟩
abbrev S_ : Shape := ⟨0, ![]⟩
abbrev S2x1 : Shape := ⟨2, ![2, 1]⟩
abbrev S4000000x2 : Shape := ⟨2, ![4000000, 2]⟩
abbrev S1x4000000 : Shape := ⟨2, ![1, 4000000]⟩
abbrev S2x4000000 : Shape := ⟨2, ![2, 4000000]⟩
abbrev S8000000 : Shape := ⟨1, ![8000000]⟩
abbrev S500 : Shape := ⟨1, ![500]⟩
abbrev S8000000x1 : Shape := ⟨2, ![8000000, 1]⟩

abbrev nBuf : Space → Nat
  | .hbm => 62
  | .vmem => 0
  | .smem => 0
  | _ => 0

abbrev bufTy : (tb : Table) → Fin (tcTables nBuf tb) → BufTy
  | .hbm, ⟨0, _⟩ => ⟨S4000000x5, .f32⟩
  | .hbm, ⟨1, _⟩ => ⟨S4000000x5, .f32⟩
  | .hbm, ⟨2, _⟩ => ⟨S4000000, .f32⟩
  | .hbm, ⟨3, _⟩ => ⟨S4000000, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S4000000x2, .f32⟩
  | .hbm, ⟨14, _⟩ => ⟨S_, .f32⟩
  | .hbm, ⟨15, _⟩ => ⟨S4000000x2, .f32⟩
  | .hbm, ⟨16, _⟩ => ⟨S4000000x2, .f32⟩
  | .hbm, ⟨17, _⟩ => ⟨S4000000x2, .f32⟩
  | .hbm, ⟨18, _⟩ => ⟨S4000000x2, .f32⟩
  | .hbm, ⟨19, _⟩ => ⟨S_, .f32⟩
  | .hbm, ⟨20, _⟩ => ⟨S4000000x2, .f32⟩
  | .hbm, ⟨21, _⟩ => ⟨S4000000x2, .f32⟩
  | .hbm, ⟨22, _⟩ => ⟨S_, .f32⟩
  | .hbm, ⟨23, _⟩ => ⟨S4000000x2, .f32⟩
  | .hbm, ⟨24, _⟩ => ⟨S4000000x2, .f32⟩
  | .hbm, ⟨25, _⟩ => ⟨S_, .i32⟩
  | .hbm, ⟨26, _⟩ => ⟨S2, .i32⟩
  | .hbm, ⟨27, _⟩ => ⟨S2, .i1⟩
  | .hbm, ⟨28, _⟩ => ⟨S_, .i32⟩
  | .hbm, ⟨29, _⟩ => ⟨S2, .i32⟩
  | .hbm, ⟨30, _⟩ => ⟨S2, .i32⟩
  | .hbm, ⟨31, _⟩ => ⟨S2, .i32⟩
  | .hbm, ⟨32, _⟩ => ⟨S2x1, .i32⟩
  | .hbm, ⟨33, _⟩ => ⟨S4000000x2, .f32⟩
  | .hbm, ⟨34, _⟩ => ⟨S1x4000000, .f32⟩
  | .hbm, ⟨35, _⟩ => ⟨S2x4000000, .f32⟩
  | .hbm, ⟨36, _⟩ => ⟨S8000000, .f32⟩
  | .hbm, ⟨37, _⟩ => ⟨S1x4000000, .i32⟩
  | .hbm, ⟨38, _⟩ => ⟨S2x4000000, .i32⟩
  | .hbm, ⟨39, _⟩ => ⟨S8000000, .i32⟩
  | .hbm, ⟨40, _⟩ => ⟨S8000000, .f32⟩
  | .hbm, ⟨41, _⟩ => ⟨S8000000, .f32⟩
  | .hbm, ⟨42, _⟩ => ⟨S8000000, .f32⟩
  | .hbm, ⟨43, _⟩ => ⟨S8000000, .f32⟩
  | .hbm, ⟨44, _⟩ => ⟨S_, .f32⟩
  | .hbm, ⟨45, _⟩ => ⟨S500, .f32⟩
  | .hbm, ⟨46, _⟩ => ⟨S8000000x1, .i32⟩
  | .hbm, ⟨47, _⟩ => ⟨S500, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S500, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S4000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_cst_9 : Ref sig .tc := ⟨.hbm, 52, rfl⟩
abbrev main_call0_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S2_S2x1_0 : S2.BroadcastsInDim S2x1 (![0] : Fin 1 → Fin S2x1.rank)
  bcast_S_S4000000x2 : S_.BroadcastsInDim S4000000x2 (![] : Fin 0 → Fin S4000000x2.rank)
  shapeCasts_S4000000_S1x4000000 : S4000000.ShapeCasts S1x4000000
  bcast_S1x4000000_S2x4000000_0_1 : S1x4000000.BroadcastsInDim S2x4000000 (![0, 1] : Fin 2 → Fin S2x4000000.rank)
  shapeCasts_S2x4000000_S8000000 : S2x4000000.ShapeCasts S8000000
  shapeCasts_S4000000x2_S8000000 : S4000000x2.ShapeCasts S8000000
  bcast_S_S500 : S_.BroadcastsInDim S500 (![] : Fin 0 → Fin S500.rank)
  bcast_S8000000_S8000000x1_0 : S8000000.BroadcastsInDim S8000000x1 (![0] : Fin 1 → Fin S8000000x1.rank)
  reducesTo_S500_S_d0 : S500.ReducesTo [0] S_
  h_S_ : 0 < S_.numel
  gather_S4000000x5_S2x1_S4000000x2_0_1_n_n_1_1_40000001_wf : GatherDims.WF S4000000x5 S2x1 S4000000x2 [0] [1] [] [1] [] 1 ![4000000, 1]
  scatter_S500_S8000000x1_S8000000_n_0_0_1_wf : ScatterDims.WF S500 S8000000x1 S8000000 [] [0] [0] 1

variable [Facts₀]

def gather_S4000000x5_S2x1_S4000000x2_0_1_n_n_1_1_40000001 : GatherDims S4000000x5 S2x1 S4000000x2 where
  offsetDims := [0]
  collapsedSliceDims := [1]
  operandBatchingDims := []
  startIndicesBatchingDims := []
  startIndexMap := [1]
  indexVectorDim := 1
  sliceSizes := ![4000000, 1]
  wf := gather_S4000000x5_S2x1_S4000000x2_0_1_n_n_1_1_40000001_wf
def scatter_S500_S8000000x1_S8000000_n_0_0_1 : ScatterDims S500 S8000000x1 S8000000 where
  updateWindowDims := []
  insertedWindowDims := [0]
  scatterDimsToOperandDims := [0]
  indexVectorDim := 1
  wf := scatter_S500_S8000000x1_S8000000_n_0_0_1_wf

class Facts : Prop extends Facts₀ where

variable [Facts]
-- ==== Proof.BodyKI.lean ====
/-
  The kernel body and the pipeline that calls it.

  At each of the 16 grid points the body reads two [2, 2048, 128] blocks (u and v, the two halves of the flattened
  columns) and one [2048, 128] block of weights, and writes the [2048, 128] block whose entry (r, l) is
      w (r, l) · (σ (u (0, r, l)) · v (0, r, l) + σ (u (1, r, l)) · v (1, r, l)),       σ x = logistic (12 · x).
  The arrays have 31250 rows, so the block at the last point runs 1518 rows past the arrays' end: a fetch brings
  only the rows inside the array, the rest of the buffer holds words nothing names, and a write-back writes only the rows
  inside.  Entry (r, l) of what the body stores depends only on entries (·, r, l) of what it read, so on the rows
  inside the array the stored block does not depend on those unnamed words: that is all the pipeline asks of it.
-/
import proofs.«416177_j73589969650309_3_alg».proof.Proof.Gen.Kernel.Frame
import proofs.«416177_j73589969650309_3_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Pipeline.Kit
import Idealize.ShloMosaic.Lib.ValueIdx
import Idealize.ShloMosaic.Lib.ValueLayout
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## One entry of the stored block -/

/-- The scalar function of the body: w · (σ a · c + σ b · d). -/
def gS (a b c d w : F .f32) : F .f32 :=
  FloatOps.mulf w (FloatOps.addf
    (FloatOps.mulf (FloatOps.logistic (FloatOps.mulf (Scalar.ofBits .f32 0x41400000#32) a)) c)
    (FloatOps.mulf (FloatOps.logistic (FloatOps.mulf (Scalar.ofBits .f32 0x41400000#32) b)) d))

/-- Entry (r, l) of the stored block is the scalar function of entries (0, r, l) of the four half-blocks read and
    entry (r, l) of the weights read. -/
theorem pay_apply (v0 v2 v4 v6 : Vec F S1x2048x128 .f32) (v8 : Vec F S2048x128 .f32) (r : Fin 2048) (l : Fin 128) :
    k0_pay1 v0 v2 v4 v6 v8 (ix2 r l)
      = gS (v0 (ix3 (0 : Fin 1) r l)) (v2 (ix3 (0 : Fin 1) r l)) (v4 (ix3 (0 : Fin 1) r l)) (v6 (ix3 (0 : Fin 1) r l)) (v8 (ix2 r l)) := by
  unfold k0_pay1 gS
  show FloatOps.mulf (shapeCast S2048x128 v8 _ (ix2 r l)) (FloatOps.addf
      (FloatOps.mulf (FloatOps.logistic (FloatOps.mulf _ (shapeCast S2048x128 v0 _ (ix2 r l)))) (shapeCast S2048x128 v4 _ (ix2 r l)))
      (FloatOps.mulf (FloatOps.logistic (FloatOps.mulf _ (shapeCast S2048x128 v2 _ (ix2 r l)))) (shapeCast S2048x128 v6 _ (ix2 r l)))) = _
  rw [shapeCast_self v8, shapeCast_1ab_ab_apply v0, shapeCast_1ab_ab_apply v2,
    shapeCast_1ab_ab_apply v4, shapeCast_1ab_ab_apply v6]
  rfl

/-! ## The body's accesses and its triple -/

abbrev rLo : Rect S2x2048x128 := Rect.unit (s := S2x2048x128) ![0, 0, 0] S1x2048x128.size inb_S2x2048x128_S1x2048x128_0_0_0
abbrev rHi : Rect S2x2048x128 := Rect.unit (s := S2x2048x128) ![1, 0, 0] S1x2048x128.size inb_S2x2048x128_S1x2048x128_1_0_0
abbrev rW : Rect S2048x128 := Rect.unit (s := S2048x128) ![0, 0] S2048x128.size inb_S2048x128_S2048x128_0_0

/-- What the output buffer holds after the body, from what the three input buffers hold: its one store. -/
def outOf (x0 x1 : Vec F S2x2048x128 .f32) (x2 : Vec F S2048x128 .f32) : Vec F S2048x128 .f32 :=
  View.canon [⟨rW, k0_pay1 (View.ld x0 rLo) (View.ld x0 rHi) (View.ld x1 rLo) (View.ld x1 rHi) (View.ld x2 rW)⟩]

/-- The one store covers the buffer. -/
theorem cover_out (p0 : Vec F S2048x128 .f32) (y : S2048x128.Idx) :
    ∃ pc ∈ ([⟨rW, p0⟩] : List (View.Piece (Elt F) S2048x128 .f32)), y ∈ pc.1.set :=
  View.cover_of_tiled [⟨rW, p0⟩] S2048x128.size (by rfl) y

set_option maxHeartbeats 1000000 in
/-- The body on whole buffers: the three inputs are read and kept, the output buffer ends at outOf of them. -/
theorem sound_kernel (c : Dev nD) (E : Set ℕ) (i : grid0.Coords)
    (arg1 : Memref sig .tc .vmem S2x2048x128 .f32) (harg1 : arg1.IsWhole) (arg2 : Memref sig .tc .vmem S2x2048x128 .f32) (harg2 : arg2.IsWhole)
    (arg3 : Memref sig .tc .vmem S2048x128 .f32) (harg3 : arg3.IsWhole) (arg4 : Memref sig .tc .vmem S2048x128 .f32) (harg4 : arg4.IsWhole)
    (x0 x1 : Vec F S2x2048x128 .f32) (x2 : Vec F S2048x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (outOf x0 x1 x2)) -∗ K ⟨⟩))
      ⊢ wp frame (wpE (defs₀ (F := F)) Variants.none c none) E (cc0__contrib_kernel i arg1 harg1 arg2 harg2 arg3 harg3 arg4 harg4) K := by
  simp only [cc0__contrib_kernel_eq_skeleton]; unfold cc0__contrib_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Kernel.Hand

end
-- ==== Proof.BodyKII.lean ====
/-
  The pipeline's proof data, the body's obligation at every grid point, and the run.

  After the body at point t each input buffer holds its block on the rows inside the array (zero elsewhere, a
  choice nothing reads), and the output buffer holds what the body stores from those.  A block at the last point
  runs past the array's end; what the fetch leaves there is unknown, but entry (r, l) of the stored block depends only
  on entries (·, r, l) read, so on the rows that are written back the stored block is the same whatever fills the rest.
-/
import proofs.«416177_j73589969650309_3_alg».proof.Proof.BodyKI

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The stored block depends on what was read entry by entry -/

theorem hz2 : (![0, 0] : Fin 2 → Nat) = fun _ => 0 := funext fun a => by fin_cases a <;> rfl

/-- The lower half-block read, at (0, r, l), is the buffer at (0, r, l); the upper one is the buffer at (1, r, l). -/
theorem ld_lo (x : Vec F S2x2048x128 .f32) (r : Fin 2048) (l : Fin 128) :
    View.ld x rLo (ix3 (0 : Fin 1) r l) = x (ix3 (0 : Fin 2) r l) := by
  show x (rLo.emb (ix3 (0 : Fin 1) r l)) = _
  congr 1; funext a; refine Fin.ext ?_
  rw [Rect.emb_apply]
  match a with
  | ⟨0, _⟩ => rfl
  | ⟨1, _⟩ => show 0 + 1 * r.val = r.val; omega
  | ⟨2, _⟩ => show 0 + 1 * l.val = l.val; omega
theorem ld_hi (x : Vec F S2x2048x128 .f32) (r : Fin 2048) (l : Fin 128) :
    View.ld x rHi (ix3 (0 : Fin 1) r l) = x (ix3 (1 : Fin 2) r l) := by
  show x (rHi.emb (ix3 (0 : Fin 1) r l)) = _
  congr 1; funext a; refine Fin.ext ?_
  rw [Rect.emb_apply]
  match a with
  | ⟨0, _⟩ => rfl
  | ⟨1, _⟩ => show 0 + 1 * r.val = r.val; omega
  | ⟨2, _⟩ => show 0 + 1 * l.val = l.val; omega

/-- Entry (r, l) of what the body leaves in the output buffer: the scalar function of the entries (·, r, l) of the
    three input buffers. -/
theorem outOf_apply (x0 x1 : Vec F S2x2048x128 .f32) (x2 : Vec F S2048x128 .f32) (r : Fin 2048) (l : Fin 128) :
    outOf x0 x1 x2 (ix2 r l)
      = gS (x0 (ix3 (0 : Fin 2) r l)) (x0 (ix3 (1 : Fin 2) r l)) (x1 (ix3 (0 : Fin 2) r l)) (x1 (ix3 (1 : Fin 2) r l)) (x2 (ix2 r l)) := by
  unfold outOf
  rw [View.canon_unit_zero hz2, pay_apply, ld_lo, ld_hi, ld_lo, ld_hi, View.ld_unit_zero (S := S2048x128) hz2]

/-! ## The windows cut alike -/

/-- At every point the two three-axis windows move both halves, every lane, and as many rows as the two two-axis
    windows do; those move every lane. -/
theorem cuts (t : Fin cfg0.N) :
    win0_0.xsize (grid0.coords t) 0 = 2 ∧ win0_0.xsize (grid0.coords t) 2 = 128
    ∧ win0_0.xsize (grid0.coords t) 1 = win0_3.xsize (grid0.coords t) 0
    ∧ win0_1.xsize (grid0.coords t) 0 = 2 ∧ win0_1.xsize (grid0.coords t) 2 = 128
    ∧ win0_1.xsize (grid0.coords t) 1 = win0_3.xsize (grid0.coords t) 0
    ∧ win0_2.xsize (grid0.coords t) 0 = win0_3.xsize (grid0.coords t) 0 ∧ win0_2.xsize (grid0.coords t) 1 = 128
    ∧ win0_3.xsize (grid0.coords t) 1 = 128 :=
  (by decide +kernel : ∀ t : Fin grid0.N,
    win0_0.xsize (grid0.coords t) 0 = 2 ∧ win0_0.xsize (grid0.coords t) 2 = 128
    ∧ win0_0.xsize (grid0.coords t) 1 = win0_3.xsize (grid0.coords t) 0
    ∧ win0_1.xsize (grid0.coords t) 0 = 2 ∧ win0_1.xsize (grid0.coords t) 2 = 128
    ∧ win0_1.xsize (grid0.coords t) 1 = win0_3.xsize (grid0.coords t) 0
    ∧ win0_2.xsize (grid0.coords t) 0 = win0_3.xsize (grid0.coords t) 0 ∧ win0_2.xsize (grid0.coords t) 1 = 128
    ∧ win0_3.xsize (grid0.coords t) 1 = 128) t

/-- Where the transfer moves the entry, a filled buffer does not depend on what fills the rest. -/
theorem fill_indep {G : Pipeline.Grid} (w : Window sig G) {α : Type} (i : G.Coords) (d d' : w.block.Idx → α)
    (g : (w.xblock i).Idx → α) (j : w.block.Idx) (hm : w.moved i j = true) : w.fill i d g j = w.fill i d' g j := by
  unfold Window.fill; rw [dif_pos hm, dif_pos hm]

variable (m : (ℓ : Loc nD τ sig) → Buf (Elt F) ℓ) (ρ : Dev nD → PrngReg)

/-! ## The proof data -/

/-- Each input window's block at point t as the fetch reads it: its part inside the array. -/
def blk0 (c : Dev nD) (t : Fin cfg0.N) : (win0_0.xblock (grid0.coords t)).Idx → Elt F .f32 :=
  (win0_0.blk t).view.read (Elt F) (V m c main_v4)
def blk1 (c : Dev nD) (t : Fin cfg0.N) : (win0_1.xblock (grid0.coords t)).Idx → Elt F .f32 :=
  (win0_1.blk t).view.read (Elt F) (V m c main_v5)
def blk2 (c : Dev nD) (t : Fin cfg0.N) : (win0_2.xblock (grid0.coords t)).Idx → Elt F .f32 :=
  (win0_2.blk t).view.read (Elt F) (V m c main_v6)

/-- The input buffers after the body at point t: the block where the fetch put it, zero elsewhere. -/
def in0 (c : Dev nD) (t : Fin cfg0.N) : S2x2048x128.Idx → Elt F .f32 :=
  win0_0.fill (grid0.coords t) (fun _ => Scalar.ofBits .f32 0#32) (blk0 m c t)
def in1 (c : Dev nD) (t : Fin cfg0.N) : S2x2048x128.Idx → Elt F .f32 :=
  win0_1.fill (grid0.coords t) (fun _ => Scalar.ofBits .f32 0#32) (blk1 m c t)
def in2 (c : Dev nD) (t : Fin cfg0.N) : S2048x128.Idx → Elt F .f32 :=
  win0_2.fill (grid0.coords t) (fun _ => Scalar.ofBits .f32 0#32) (blk2 m c t)
/-- The output buffer after the body at point t. -/
def out3 (c : Dev nD) (t : Fin cfg0.N) : S2048x128.Idx → Elt F .f32 := outOf (in0 m c t) (in1 m c t) (in2 m c t)

/-- The proof data of the one pipeline on core c: the arrays as the region finds them; the buffers after the body
    as above; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => out3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = in0 m c t := by dsimp only [dats]
theorem after_1 (c : Dev nD) (t : Fin cfg0.N) : (dats m 0 c).after 1 t = in1 m c t := by dsimp only [dats]
theorem after_2 (c : Dev nD) (t : Fin cfg0.N) : (dats m 0 c).after 2 t = in2 m c t := by dsimp only [dats]
theorem after_3 (c : Dev nD) (t : Fin cfg0.N) : (dats m 0 c).after 3 t = out3 m c t := by dsimp only [dats]

/-- What the body finds: each input buffer just fetched — its block on the rows inside the array, anything elsewhere; -/
theorem before_0 (c : Dev nD) (t : Fin cfg0.N) (d) :
    (dats m 0 c).before (0 : Fin 4) t d = win0_0.fill (grid0.coords t) d (blk0 m c t) := by
  unfold Dat.before; rw [if_pos (fetch0_0 t)]; rfl
theorem before_1 (c : Dev nD) (t : Fin cfg0.N) (d) :
    (dats m 0 c).before (1 : Fin 4) t d = win0_1.fill (grid0.coords t) d (blk1 m c t) := by
  unfold Dat.before; rw [if_pos (fetch0_1 t)]; rfl
theorem before_2 (c : Dev nD) (t : Fin cfg0.N) (d) :
    (dats m 0 c).before (2 : Fin 4) t d = win0_2.fill (grid0.coords t) d (blk2 m c t) := by
  unfold Dat.before; rw [if_pos (fetch0_2 t)]; rfl
/-- the output buffer at anything: it was written back at the point before. -/
theorem before_3 (c : Dev nD) (t : Fin cfg0.N) (d) : (dats m 0 c).before (3 : Fin 4) t d = d :=
  (dats m 0 c).before_out_reset 3 rfl t
    (by rcases Nat.eq_zero_or_pos t.val with h | h
        · exact .inl h
        · exact .inr ⟨Nat.pos_iff_ne_zero.mp h, flush0_3 _⟩) d

/-! ## The rows written back do not depend on what fills the rest -/

theorem cut_out (c : Dev nD) (t : Fin cfg0.N) (d0 d1 : S2x2048x128.Idx → Elt F .f32) (d2 : S2048x128.Idx → Elt F .f32) :
    win0_3.cut (grid0.coords t)
        (outOf (win0_0.fill (grid0.coords t) d0 (blk0 m c t)) (win0_1.fill (grid0.coords t) d1 (blk1 m c t))
          (win0_2.fill (grid0.coords t) d2 (blk2 m c t)))
      = win0_3.cut (grid0.coords t) (out3 m c t) := by
  obtain ⟨h00, h02, h01, h10, h12, h11, h20, h21, h31⟩ := cuts t
  funext j
  have hr : (j 0).val < 2048 := Nat.lt_of_lt_of_le (j 0).isLt (win0_3.xsize_le (grid0.coords t) 0)
  have hl : (j 1).val < 128 := Nat.lt_of_lt_of_le (j 1).isLt (win0_3.xsize_le (grid0.coords t) 1)
  have hj : win0_3.xinj (grid0.coords t) j = ix2 (⟨(j 0).val, hr⟩ : Fin 2048) (⟨(j 1).val, hl⟩ : Fin 128) :=
    funext fun a => Fin.ext (by match a with | ⟨0, _⟩ => rfl | ⟨1, _⟩ => rfl)
  show outOf _ _ _ (win0_3.xinj (grid0.coords t) j) = out3 m c t (win0_3.xinj (grid0.coords t) j)
  unfold out3 in0 in1 in2
  rw [hj, outOf_apply, outOf_apply]
  have m0 : ∀ h : Fin 2, win0_0.moved (grid0.coords t) (ix3 h (⟨(j 0).val, hr⟩ : Fin 2048) (⟨(j 1).val, hl⟩ : Fin 128)) = true :=
    fun h => (win0_0.moved_iff _ _).mpr fun a => by
      match a with
      | ⟨0, _⟩ => show h.val < win0_0.xsize (grid0.coords t) 0; rw [h00]; exact h.isLt
      | ⟨1, _⟩ => show (j 0).val < win0_0.xsize (grid0.coords t) 1; rw [h01]; exact (j 0).isLt
      | ⟨2, _⟩ => show (j 1).val < win0_0.xsize (grid0.coords t) 2; rw [h02]; exact hl
  have m1 : ∀ h : Fin 2, win0_1.moved (grid0.coords t) (ix3 h (⟨(j 0).val, hr⟩ : Fin 2048) (⟨(j 1).val, hl⟩ : Fin 128)) = true :=
    fun h => (win0_1.moved_iff _ _).mpr fun a => by
      match a with
      | ⟨0, _⟩ => show h.val < win0_1.xsize (grid0.coords t) 0; rw [h10]; exact h.isLt
      | ⟨1, _⟩ => show (j 0).val < win0_1.xsize (grid0.coords t) 1; rw [h11]; exact (j 0).isLt
      | ⟨2, _⟩ => show (j 1).val < win0_1.xsize (grid0.coords t) 2; rw [h12]; exact hl
  have m2 : win0_2.moved (grid0.coords t) (ix2 (⟨(j 0).val, hr⟩ : Fin 2048) (⟨(j 1).val, hl⟩ : Fin 128)) = true :=
    (win0_2.moved_iff _ _).mpr fun a => by
      match a with
      | ⟨0, _⟩ => show (j 0).val < win0_2.xsize (grid0.coords t) 0; rw [h20]; exact (j 0).isLt
      | ⟨1, _⟩ => show (j 1).val < win0_2.xsize (grid0.coords t) 1; rw [h21]; exact hl
  rw [fill_indep win0_0 _ d0 (fun _ => Scalar.ofBits .f32 0#32) _ _ (m0 0), fill_indep win0_0 _ d0 (fun _ => Scalar.ofBits .f32 0#32) _ _ (m0 1),
    fill_indep win0_1 _ d1 (fun _ => Scalar.ofBits .f32 0#32) _ _ (m1 0), fill_indep win0_1 _ d1 (fun _ => Scalar.ofBits .f32 0#32) _ _ (m1 1),
    fill_indep win0_2 _ d2 (fun _ => Scalar.ofBits .f32 0#32) _ _ m2]

end Cert.Kernel.Hand

end
-- ==== Proof.BodyKIII.lean ====
/-
  The body's obligation at every grid point, the run of the whole program, and its frame.

  The body finds each input buffer just fetched (its block on the rows inside the array, anything elsewhere) and leaves
  it so; it leaves the output buffer at the stored block, which on the rows written back is what the proof data names.
  The library's launch then runs the host operations before the region, the 16 points, and the host operations after.
-/
import proofs.«416177_j73589969650309_3_alg».proof.Proof.BodyKII

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At every point: the three input buffers arrive just fetched and the output buffer at anything; the body leaves the
    inputs as they were and the output at the stored block; on the rows each transfer moves these are the proof data's. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_0.fill (grid0.coords t) d0 (blk0 m c t)) (win0_1.fill (grid0.coords t) d1 (blk1 m c t))
    (win0_2.fill (grid0.coords t) d2 (blk2 m c t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · iexists d0
    rw [after_0 m c t, show (win0 0).cut (grid0.coords t) (in0 m c t) = blk0 m c t from win0_0.cut_fill _ _ _]
    iexact H0
  isplitl [H1]
  · iexists d1
    rw [after_1 m c t, show (win0 1).cut (grid0.coords t) (in1 m c t) = blk1 m c t from win0_1.cut_fill _ _ _]
    iexact H1
  isplitl [H2]
  · iexists d2
    rw [after_2 m c t, show (win0 2).cut (grid0.coords t) (in2 m c t) = blk2 m c t from win0_2.cut_fill _ _ _]
    iexact H2
  · iexists outOf (win0_0.fill (grid0.coords t) d0 (blk0 m c t)) (win0_1.fill (grid0.coords t) d1 (blk1 m c t))
      (win0_2.fill (grid0.coords t) d2 (blk2 m c t))
    rw [after_3 m c t, win0_3.fill_congr_cut (grid0.coords t) (cut_out m c t d0 d1 d2)]
    iexact H3

set_option backward.isDefEq.respectTransparency.types false in
/-- For any values, from any memory with zero counters: every weakly fair execution of @main terminates; every array of
    the pipeline ends at what the library computes from the proof data, and every other unscoped buffer at what the
    host operations after the region leave in it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2]) (hsub := sfx_sub) (hfresh := sfx_fresh)
    (hkeep := sfx_keeps) (hmain := hmain m Variants.none) (hA := A_eq m) (hΦ := fun _ _ => rfl)

/-- The frame: the program runs to its end without a fault and its four argument arrays end as they began. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.BodyI.lean ====
/-
  The kernel body and the pipeline that calls it.

  At each of the 16 grid points the body reads two [2, 2048, 128] blocks (u and v, the two halves of the flattened
  columns) and one [2048, 128] block of weights, and writes the [2048, 128] block whose entry (r, l) is
      w (r, l) · (σ (u (0, r, l)) · v (0, r, l) + σ (u (1, r, l)) · v (1, r, l)),       σ x = logistic (12 · x).
  The arrays have 31250 rows, so the block at the last point runs 1518 rows past the arrays' end: a fetch brings
  only the rows inside the array, the rest of the buffer holds words nothing names, and a write-back writes only the rows
  inside.  Entry (r, l) of what the body stores depends only on entries (·, r, l) of what it read, so on the rows
  inside the array the stored block does not depend on those unnamed words: that is all the pipeline asks of it.
-/
import proofs.«416177_j73589969650309_3_alg».proof.Proof.Gen.KernelIdeal.Frame
import proofs.«416177_j73589969650309_3_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Pipeline.Kit
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## One entry of the stored block -/

/-- The scalar function of the body: w · (σ a · c + σ b · d). -/
def gS (a b c d w : F .f32) : F .f32 :=
  FloatOps.mulf w (FloatOps.addf
    (FloatOps.mulf (FloatOps.logistic (FloatOps.mulf (Scalar.ofBits .f32 0x41400000#32) a)) c)
    (FloatOps.mulf (FloatOps.logistic (FloatOps.mulf (Scalar.ofBits .f32 0x41400000#32) b)) d))

/-- Entry (r, l) of the stored block is the scalar function of entries (0, r, l) of the four half-blocks read and
    entry (r, l) of the weights read. -/
theorem pay_apply (v0 v2 v4 v6 : Vec F S1x2048x128 .f32) (v8 : Vec F S2048x128 .f32) (r : Fin 2048) (l : Fin 128) :
    k0_pay1 v0 v2 v4 v6 v8 (ix2 r l)
      = gS (v0 (ix3 (0 : Fin 1) r l)) (v2 (ix3 (0 : Fin 1) r l)) (v4 (ix3 (0 : Fin 1) r l)) (v6 (ix3 (0 : Fin 1) r l)) (v8 (ix2 r l)) := by
  unfold k0_pay1 gS
  show FloatOps.mulf (shapeCast S2048x128 v8 _ (ix2 r l)) (FloatOps.addf
      (FloatOps.mulf (FloatOps.logistic (FloatOps.mulf _ (shapeCast S2048x128 v0 _ (ix2 r l)))) (shapeCast S2048x128 v4 _ (ix2 r l)))
      (FloatOps.mulf (FloatOps.logistic (FloatOps.mulf _ (shapeCast S2048x128 v2 _ (ix2 r l)))) (shapeCast S2048x128 v6 _ (ix2 r l)))) = _
  rw [shapeCast_self v8, shapeCast_1ab_ab_apply v0, shapeCast_1ab_ab_apply v2,
    shapeCast_1ab_ab_apply v4, shapeCast_1ab_ab_apply v6]
  rfl

/-! ## The body's accesses and its triple -/

abbrev rLo : Rect S2x2048x128 := Rect.unit (s := S2x2048x128) ![0, 0, 0] S1x2048x128.size inb_S2x2048x128_S1x2048x128_0_0_0
abbrev rHi : Rect S2x2048x128 := Rect.unit (s := S2x2048x128) ![1, 0, 0] S1x2048x128.size inb_S2x2048x128_S1x2048x128_1_0_0
abbrev rW : Rect S2048x128 := Rect.unit (s := S2048x128) ![0, 0] S2048x128.size inb_S2048x128_S2048x128_0_0

/-- What the output buffer holds after the body, from what the three input buffers hold: its one store. -/
def outOf (x0 x1 : Vec F S2x2048x128 .f32) (x2 : Vec F S2048x128 .f32) : Vec F S2048x128 .f32 :=
  View.canon [⟨rW, k0_pay1 (View.ld x0 rLo) (View.ld x0 rHi) (View.ld x1 rLo) (View.ld x1 rHi) (View.ld x2 rW)⟩]

/-- The one store covers the buffer. -/
theorem cover_out (p0 : Vec F S2048x128 .f32) (y : S2048x128.Idx) :
    ∃ pc ∈ ([⟨rW, p0⟩] : List (View.Piece (Elt F) S2048x128 .f32)), y ∈ pc.1.set :=
  View.cover_of_tiled [⟨rW, p0⟩] S2048x128.size (by rfl) y

set_option maxHeartbeats 1000000 in
/-- The body on whole buffers: the three inputs are read and kept, the output buffer ends at outOf of them. -/
theorem sound_kernel (c : Dev nD) (E : Set ℕ) (i : grid0.Coords)
    (arg1 : Memref sig .tc .vmem S2x2048x128 .f32) (harg1 : arg1.IsWhole) (arg2 : Memref sig .tc .vmem S2x2048x128 .f32) (harg2 : arg2.IsWhole)
    (arg3 : Memref sig .tc .vmem S2048x128 .f32) (harg3 : arg3.IsWhole) (arg4 : Memref sig .tc .vmem S2048x128 .f32) (harg4 : arg4.IsWhole)
    (x0 x1 : Vec F S2x2048x128 .f32) (x2 : Vec F S2048x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (outOf x0 x1 x2)) -∗ K ⟨⟩))
      ⊢ wp frame (wpE (defs₀ (F := F)) Variants.none c none) E (cc0__contrib_kernel i arg1 harg1 arg2 harg2 arg3 harg3 arg4 harg4) K := by
  simp only [cc0__contrib_kernel_eq_skeleton]; unfold cc0__contrib_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.KernelIdeal.Hand

end
-- ==== Proof.BodyII.lean ====
/-
  The pipeline's proof data, the body's obligation at every grid point, and the run.

  After the body at point t each input buffer holds its block on the rows inside the array (zero elsewhere, a
  choice nothing reads), and the output buffer holds what the body stores from those.  A block at the last point
  runs past the array's end; what the fetch leaves there is unknown, but entry (r, l) of the stored block depends only
  on entries (·, r, l) read, so on the rows that are written back the stored block is the same whatever fills the rest.
-/
import proofs.«416177_j73589969650309_3_alg».proof.Proof.BodyI

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The stored block depends on what was read entry by entry -/

theorem hz2 : (![0, 0] : Fin 2 → Nat) = fun _ => 0 := funext fun a => by fin_cases a <;> rfl

/-- The lower half-block read, at (0, r, l), is the buffer at (0, r, l); the upper one is the buffer at (1, r, l). -/
theorem ld_lo (x : Vec F S2x2048x128 .f32) (r : Fin 2048) (l : Fin 128) :
    View.ld x rLo (ix3 (0 : Fin 1) r l) = x (ix3 (0 : Fin 2) r l) := by
  show x (rLo.emb (ix3 (0 : Fin 1) r l)) = _
  congr 1; funext a; refine Fin.ext ?_
  rw [Rect.emb_apply]
  match a with
  | ⟨0, _⟩ => rfl
  | ⟨1, _⟩ => show 0 + 1 * r.val = r.val; omega
  | ⟨2, _⟩ => show 0 + 1 * l.val = l.val; omega
theorem ld_hi (x : Vec F S2x2048x128 .f32) (r : Fin 2048) (l : Fin 128) :
    View.ld x rHi (ix3 (0 : Fin 1) r l) = x (ix3 (1 : Fin 2) r l) := by
  show x (rHi.emb (ix3 (0 : Fin 1) r l)) = _
  congr 1; funext a; refine Fin.ext ?_
  rw [Rect.emb_apply]
  match a with
  | ⟨0, _⟩ => rfl
  | ⟨1, _⟩ => show 0 + 1 * r.val = r.val; omega
  | ⟨2, _⟩ => show 0 + 1 * l.val = l.val; omega

/-- Entry (r, l) of what the body leaves in the output buffer: the scalar function of the entries (·, r, l) of the
    three input buffers. -/
theorem outOf_apply (x0 x1 : Vec F S2x2048x128 .f32) (x2 : Vec F S2048x128 .f32) (r : Fin 2048) (l : Fin 128) :
    outOf x0 x1 x2 (ix2 r l)
      = gS (x0 (ix3 (0 : Fin 2) r l)) (x0 (ix3 (1 : Fin 2) r l)) (x1 (ix3 (0 : Fin 2) r l)) (x1 (ix3 (1 : Fin 2) r l)) (x2 (ix2 r l)) := by
  unfold outOf
  rw [View.canon_unit_zero hz2, pay_apply, ld_lo, ld_hi, ld_lo, ld_hi, View.ld_unit_zero (S := S2048x128) hz2]

/-! ## The windows cut alike -/

/-- At every point the two three-axis windows move both halves, every lane, and as many rows as the two two-axis
    windows do; those move every lane. -/
theorem cuts (t : Fin cfg0.N) :
    win0_0.xsize (grid0.coords t) 0 = 2 ∧ win0_0.xsize (grid0.coords t) 2 = 128
    ∧ win0_0.xsize (grid0.coords t) 1 = win0_3.xsize (grid0.coords t) 0
    ∧ win0_1.xsize (grid0.coords t) 0 = 2 ∧ win0_1.xsize (grid0.coords t) 2 = 128
    ∧ win0_1.xsize (grid0.coords t) 1 = win0_3.xsize (grid0.coords t) 0
    ∧ win0_2.xsize (grid0.coords t) 0 = win0_3.xsize (grid0.coords t) 0 ∧ win0_2.xsize (grid0.coords t) 1 = 128
    ∧ win0_3.xsize (grid0.coords t) 1 = 128 :=
  (by decide +kernel : ∀ t : Fin grid0.N,
    win0_0.xsize (grid0.coords t) 0 = 2 ∧ win0_0.xsize (grid0.coords t) 2 = 128
    ∧ win0_0.xsize (grid0.coords t) 1 = win0_3.xsize (grid0.coords t) 0
    ∧ win0_1.xsize (grid0.coords t) 0 = 2 ∧ win0_1.xsize (grid0.coords t) 2 = 128
    ∧ win0_1.xsize (grid0.coords t) 1 = win0_3.xsize (grid0.coords t) 0
    ∧ win0_2.xsize (grid0.coords t) 0 = win0_3.xsize (grid0.coords t) 0 ∧ win0_2.xsize (grid0.coords t) 1 = 128
    ∧ win0_3.xsize (grid0.coords t) 1 = 128) t

/-- Where the transfer moves the entry, a filled buffer does not depend on what fills the rest. -/
theorem fill_indep {G : Pipeline.Grid} (w : Window sig G) {α : Type} (i : G.Coords) (d d' : w.block.Idx → α)
    (g : (w.xblock i).Idx → α) (j : w.block.Idx) (hm : w.moved i j = true) : w.fill i d g j = w.fill i d' g j := by
  unfold Window.fill; rw [dif_pos hm, dif_pos hm]

variable (m : (ℓ : Loc nD τ sig) → Buf (Elt F) ℓ) (ρ : Dev nD → PrngReg)

/-! ## The proof data -/

/-- Each input window's block at point t as the fetch reads it: its part inside the array. -/
def blk0 (c : Dev nD) (t : Fin cfg0.N) : (win0_0.xblock (grid0.coords t)).Idx → Elt F .f32 :=
  (win0_0.blk t).view.read (Elt F) (V m c main_v4)
def blk1 (c : Dev nD) (t : Fin cfg0.N) : (win0_1.xblock (grid0.coords t)).Idx → Elt F .f32 :=
  (win0_1.blk t).view.read (Elt F) (V m c main_v5)
def blk2 (c : Dev nD) (t : Fin cfg0.N) : (win0_2.xblock (grid0.coords t)).Idx → Elt F .f32 :=
  (win0_2.blk t).view.read (Elt F) (V m c main_v6)

/-- The input buffers after the body at point t: the block where the fetch put it, zero elsewhere. -/
def in0 (c : Dev nD) (t : Fin cfg0.N) : S2x2048x128.Idx → Elt F .f32 :=
  win0_0.fill (grid0.coords t) (fun _ => Scalar.ofBits .f32 0#32) (blk0 m c t)
def in1 (c : Dev nD) (t : Fin cfg0.N) : S2x2048x128.Idx → Elt F .f32 :=
  win0_1.fill (grid0.coords t) (fun _ => Scalar.ofBits .f32 0#32) (blk1 m c t)
def in2 (c : Dev nD) (t : Fin cfg0.N) : S2048x128.Idx → Elt F .f32 :=
  win0_2.fill (grid0.coords t) (fun _ => Scalar.ofBits .f32 0#32) (blk2 m c t)
/-- The output buffer after the body at point t. -/
def out3 (c : Dev nD) (t : Fin cfg0.N) : S2048x128.Idx → Elt F .f32 := outOf (in0 m c t) (in1 m c t) (in2 m c t)

/-- The proof data of the one pipeline on core c: the arrays as the region finds them; the buffers after the body
    as above; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => out3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = in0 m c t := by dsimp only [dats]
theorem after_1 (c : Dev nD) (t : Fin cfg0.N) : (dats m 0 c).after 1 t = in1 m c t := by dsimp only [dats]
theorem after_2 (c : Dev nD) (t : Fin cfg0.N) : (dats m 0 c).after 2 t = in2 m c t := by dsimp only [dats]
theorem after_3 (c : Dev nD) (t : Fin cfg0.N) : (dats m 0 c).after 3 t = out3 m c t := by dsimp only [dats]

/-- What the body finds: each input buffer just fetched — its block on the rows inside the array, anything elsewhere; -/
theorem before_0 (c : Dev nD) (t : Fin cfg0.N) (d) :
    (dats m 0 c).before (0 : Fin 4) t d = win0_0.fill (grid0.coords t) d (blk0 m c t) := by
  unfold Dat.before; rw [if_pos (fetch0_0 t)]; rfl
theorem before_1 (c : Dev nD) (t : Fin cfg0.N) (d) :
    (dats m 0 c).before (1 : Fin 4) t d = win0_1.fill (grid0.coords t) d (blk1 m c t) := by
  unfold Dat.before; rw [if_pos (fetch0_1 t)]; rfl
theorem before_2 (c : Dev nD) (t : Fin cfg0.N) (d) :
    (dats m 0 c).before (2 : Fin 4) t d = win0_2.fill (grid0.coords t) d (blk2 m c t) := by
  unfold Dat.before; rw [if_pos (fetch0_2 t)]; rfl
/-- the output buffer at anything: it was written back at the point before. -/
theorem before_3 (c : Dev nD) (t : Fin cfg0.N) (d) : (dats m 0 c).before (3 : Fin 4) t d = d :=
  (dats m 0 c).before_out_reset 3 rfl t
    (by rcases Nat.eq_zero_or_pos t.val with h | h
        · exact .inl h
        · exact .inr ⟨Nat.pos_iff_ne_zero.mp h, flush0_3 _⟩) d

/-! ## The rows written back do not depend on what fills the rest -/

theorem cut_out (c : Dev nD) (t : Fin cfg0.N) (d0 d1 : S2x2048x128.Idx → Elt F .f32) (d2 : S2048x128.Idx → Elt F .f32) :
    win0_3.cut (grid0.coords t)
        (outOf (win0_0.fill (grid0.coords t) d0 (blk0 m c t)) (win0_1.fill (grid0.coords t) d1 (blk1 m c t))
          (win0_2.fill (grid0.coords t) d2 (blk2 m c t)))
      = win0_3.cut (grid0.coords t) (out3 m c t) := by
  obtain ⟨h00, h02, h01, h10, h12, h11, h20, h21, h31⟩ := cuts t
  funext j
  have hr : (j 0).val < 2048 := Nat.lt_of_lt_of_le (j 0).isLt (win0_3.xsize_le (grid0.coords t) 0)
  have hl : (j 1).val < 128 := Nat.lt_of_lt_of_le (j 1).isLt (win0_3.xsize_le (grid0.coords t) 1)
  have hj : win0_3.xinj (grid0.coords t) j = ix2 (⟨(j 0).val, hr⟩ : Fin 2048) (⟨(j 1).val, hl⟩ : Fin 128) :=
    funext fun a => Fin.ext (by match a with | ⟨0, _⟩ => rfl | ⟨1, _⟩ => rfl)
  show outOf _ _ _ (win0_3.xinj (grid0.coords t) j) = out3 m c t (win0_3.xinj (grid0.coords t) j)
  unfold out3 in0 in1 in2
  rw [hj, outOf_apply, outOf_apply]
  have m0 : ∀ h : Fin 2, win0_0.moved (grid0.coords t) (ix3 h (⟨(j 0).val, hr⟩ : Fin 2048) (⟨(j 1).val, hl⟩ : Fin 128)) = true :=
    fun h => (win0_0.moved_iff _ _).mpr fun a => by
      match a with
      | ⟨0, _⟩ => show h.val < win0_0.xsize (grid0.coords t) 0; rw [h00]; exact h.isLt
      | ⟨1, _⟩ => show (j 0).val < win0_0.xsize (grid0.coords t) 1; rw [h01]; exact (j 0).isLt
      | ⟨2, _⟩ => show (j 1).val < win0_0.xsize (grid0.coords t) 2; rw [h02]; exact hl
  have m1 : ∀ h : Fin 2, win0_1.moved (grid0.coords t) (ix3 h (⟨(j 0).val, hr⟩ : Fin 2048) (⟨(j 1).val, hl⟩ : Fin 128)) = true :=
    fun h => (win0_1.moved_iff _ _).mpr fun a => by
      match a with
      | ⟨0, _⟩ => show h.val < win0_1.xsize (grid0.coords t) 0; rw [h10]; exact h.isLt
      | ⟨1, _⟩ => show (j 0).val < win0_1.xsize (grid0.coords t) 1; rw [h11]; exact (j 0).isLt
      | ⟨2, _⟩ => show (j 1).val < win0_1.xsize (grid0.coords t) 2; rw [h12]; exact hl
  have m2 : win0_2.moved (grid0.coords t) (ix2 (⟨(j 0).val, hr⟩ : Fin 2048) (⟨(j 1).val, hl⟩ : Fin 128)) = true :=
    (win0_2.moved_iff _ _).mpr fun a => by
      match a with
      | ⟨0, _⟩ => show (j 0).val < win0_2.xsize (grid0.coords t) 0; rw [h20]; exact (j 0).isLt
      | ⟨1, _⟩ => show (j 1).val < win0_2.xsize (grid0.coords t) 1; rw [h21]; exact hl
  rw [fill_indep win0_0 _ d0 (fun _ => Scalar.ofBits .f32 0#32) _ _ (m0 0), fill_indep win0_0 _ d0 (fun _ => Scalar.ofBits .f32 0#32) _ _ (m0 1),
    fill_indep win0_1 _ d1 (fun _ => Scalar.ofBits .f32 0#32) _ _ (m1 0), fill_indep win0_1 _ d1 (fun _ => Scalar.ofBits .f32 0#32) _ _ (m1 1),
    fill_indep win0_2 _ d2 (fun _ => Scalar.ofBits .f32 0#32) _ _ m2]

end Cert.KernelIdeal.Hand

end
-- ==== Proof.BodyIII.lean ====
/-
  The body's obligation at every grid point, the run of the whole program, and its frame.

  The body finds each input buffer just fetched (its block on the rows inside the array, anything elsewhere) and leaves
  it so; it leaves the output buffer at the stored block, which on the rows written back is what the proof data names.
  The library's launch then runs the host operations before the region, the 16 points, and the host operations after.
-/
import proofs.«416177_j73589969650309_3_alg».proof.Proof.BodyII

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At every point: the three input buffers arrive just fetched and the output buffer at anything; the body leaves the
    inputs as they were and the output at the stored block; on the rows each transfer moves these are the proof data's. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_0.fill (grid0.coords t) d0 (blk0 m c t)) (win0_1.fill (grid0.coords t) d1 (blk1 m c t))
    (win0_2.fill (grid0.coords t) d2 (blk2 m c t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · iexists d0
    rw [after_0 m c t, show (win0 0).cut (grid0.coords t) (in0 m c t) = blk0 m c t from win0_0.cut_fill _ _ _]
    iexact H0
  isplitl [H1]
  · iexists d1
    rw [after_1 m c t, show (win0 1).cut (grid0.coords t) (in1 m c t) = blk1 m c t from win0_1.cut_fill _ _ _]
    iexact H1
  isplitl [H2]
  · iexists d2
    rw [after_2 m c t, show (win0 2).cut (grid0.coords t) (in2 m c t) = blk2 m c t from win0_2.cut_fill _ _ _]
    iexact H2
  · iexists outOf (win0_0.fill (grid0.coords t) d0 (blk0 m c t)) (win0_1.fill (grid0.coords t) d1 (blk1 m c t))
      (win0_2.fill (grid0.coords t) d2 (blk2 m c t))
    rw [after_3 m c t, win0_3.fill_congr_cut (grid0.coords t) (cut_out m c t d0 d1 d2)]
    iexact H3

set_option backward.isDefEq.respectTransparency.types false in
/-- For any values, from any memory with zero counters: every weakly fair execution of @main terminates; every array of
    the pipeline ends at what the library computes from the proof data, and every other unscoped buffer at what the
    host operations after the region leave in it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2]) (hsub := sfx_sub) (hfresh := sfx_fresh)
    (hkeep := sfx_keeps) (hmain := hmain m Variants.none) (hA := A_eq m) (hΦ := fun _ _ => rfl)

/-- The frame: the program runs to its end without a fault and its four argument arrays end as they began. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KerTerm.lean ====
/-
  The kernel program's result as one function of the four argument arrays.

  The first two columns of each [N × 5] matrix are flattened row-major to 2 N entries and split into two halves of
  [31250 × 128]; the weights are laid out as [31250 × 128]; the region computes, entry by entry,
      w (r, l) · (σ (u (0, r, l)) · v (0, r, l) + σ (u (1, r, l)) · v (1, r, l)),       σ x = logistic (12 · x);
  that array, flattened back to N entries, is added into 500 zeros at the days; the closing expression of the 500
  sums follows.
-/
import proofs.«416177_j73589969650309_3_alg».proof.Proof.BodyI

namespace Cert.KerTerm
open Idealize.ShloMosaic Idealize.ShloMosaic.ValueIdx Cert.KernelIdeal
variable {F : FTy → Type} [FloatOps F] [Cert.KernelIdeal.Facts]
open Cert.KernelIdeal.Facts₀ Cert.KernelIdeal.Facts

/-- The first two columns of an [N × 5] matrix, flattened row-major and split into two halves of [31250 × 128]. -/
noncomputable def halves (a : FVec F S4000000x5 .f32) : FVec F S2x31250x128 .f32 :=
  shapeCast S2x31250x128
    (shapeCast S8000000 (extractStridedSlice S4000000x2 ![0, 0] a slices_S4000000x5_S4000000x2_0_0) shapeCasts_S4000000x2_S8000000)
    shapeCasts_S8000000_S2x31250x128

/-- A length-N vector laid out as [31250 × 128]. -/
noncomputable def rows128 (w : FVec F S4000000 .f32) : FVec F S31250x128 .f32 :=
  shapeCast S31250x128 w shapeCasts_S4000000_S31250x128

/-- The region's result as a function of its three whole operand arrays, entry by entry. -/
noncomputable def G (u v : FVec F S2x31250x128 .f32) (w : FVec F S31250x128 .f32) : FVec F S31250x128 .f32 :=
  fun i => Cert.KernelIdeal.Hand.gS
    (u (ix3 (0 : Fin 2) (i 0 : Fin 31250) (i 1 : Fin 128))) (u (ix3 (1 : Fin 2) (i 0 : Fin 31250) (i 1 : Fin 128)))
    (v (ix3 (0 : Fin 2) (i 0 : Fin 31250) (i 1 : Fin 128))) (v (ix3 (1 : Fin 2) (i 0 : Fin 31250) (i 1 : Fin 128))) (w i)

/-- The 500 day sums from the days and the region's result array: that array flattened to N entries and added into
    zeros at the days. -/
noncomputable def kerPiOf (a3 : IVec S4000000 32) (y : FVec F S31250x128 .f32) : FVec F S500 .f32 :=
  Host.scatterAdd scatter_S500_S4000000x1_S4000000_n_0_0_1
    (broadcastInDim S500 ![] bcast_S_S500 (constant S_ .f32 0x00000000#32))
    (broadcastInDim S4000000x1 ![0] bcast_S4000000_S4000000x1_0 a3)
    (shapeCast S4000000 y shapeCasts_S31250x128_S4000000)

/-- The closing expression of the day sums P: ((−1 · ΣP) · max (0, ΣP)) / Σ P² / 500. -/
noncomputable def closingK (P : FVec F S500 .f32) : FVec F S_ .f32 :=
  Host.divf
    (Host.divf
      (mulf
        (mulf (constant S_ .f32 0xBF800000#32) (Host.reduceAdd P (constant S_ .f32 0x00000000#32) reducesTo_S500_S_d0 h_S_))
        (maximumf (id (constant S_ .f32 0x00000000#32)) (Host.reduceAdd P (constant S_ .f32 0x00000000#32) reducesTo_S500_S_d0 h_S_)))
      (Host.reduceAdd (mulf P P) (constant S_ .f32 0x00000000#32) reducesTo_S500_S_d0 h_S_))
    (constant S_ .f32 0x43FA0000#32)

/-- The kernel program's result. -/
noncomputable def kerOut (a0 a1 : FVec F S4000000x5 .f32) (a2 : FVec F S4000000 .f32) (a3 : IVec S4000000 32) :
    FVec F S_ .f32 :=
  closingK (kerPiOf a3 (G (halves a0) (halves a1) (rows128 a2)))

end Cert.KerTerm
-- ==== Proof.KerCover.lean ====
/-
  The region's result array in closed form.

  Point t of the 16 writes back rows 2048 t ‥ min (2048 (t + 1), 31250) − 1 of the [31250 × 128] result, every lane.
  Entry (r, l) of the block written there is the scalar function of entries (0, r, l) and (1, r, l) of the two
  three-axis blocks and entry (r, l) of the weights block fetched at t, which are entries (·, 2048 t + r, l) of the
  whole arrays.  The 16 row ranges cover all 31250 rows, so the array ends holding that function of the three whole
  arrays at every index.
-/
import proofs.«416177_j73589969650309_3_alg».proof.Proof.BodyII
import proofs.«416177_j73589969650309_3_alg».proof.Proof.KerTerm
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The block indices, over the grid: at point t the two-axis windows sit at block row t, block column 0; the
    three-axis windows at block (0, t, 0). -/
theorem idx (t : Fin cfg0.N) :
    win0_3.index t 0 = t.val ∧ win0_3.index t 1 = 0
    ∧ win0_0.index t 0 = 0 ∧ win0_0.index t 1 = t.val ∧ win0_0.index t 2 = 0
    ∧ win0_1.index t 0 = 0 ∧ win0_1.index t 1 = t.val ∧ win0_1.index t 2 = 0
    ∧ win0_2.index t 0 = t.val ∧ win0_2.index t 1 = 0 :=
  (by decide +kernel : ∀ t : Fin grid0.N,
    win0_3.index t 0 = t.val ∧ win0_3.index t 1 = 0
    ∧ win0_0.index t 0 = 0 ∧ win0_0.index t 1 = t.val ∧ win0_0.index t 2 = 0
    ∧ win0_1.index t 0 = 0 ∧ win0_1.index t 1 = t.val ∧ win0_1.index t 2 = 0
    ∧ win0_2.index t 0 = t.val ∧ win0_2.index t 1 = 0) t

/-- The rows written back at point t end at row min (2048 (t + 1), 31250). -/
theorem rows (t : Fin cfg0.N) :
    t.val * 2048 + win0_3.xsize (grid0.coords t) 0 = min (2048 * (t.val + 1)) 31250 :=
  (by decide +kernel : ∀ t : Fin grid0.N,
    t.val * 2048 + win0_3.xsize (grid0.coords t) 0 = min (2048 * (t.val + 1)) 31250) t

variable (m : (ℓ : Loc nD τ sig) → Buf (Elt F) ℓ)

/-- Where the transfer moves the entry, a filled buffer holds the block's entry at the same coordinates. -/
theorem fill_moved {G : Pipeline.Grid} (w : Window sig G) {α : Type} (i : G.Coords) (d : w.block.Idx → α)
    (g : (w.xblock i).Idx → α) (j : w.block.Idx) (hm : w.moved i j = true) :
    w.fill i d g j = g fun a => ⟨(j a).val, (w.moved_iff i j).mp hm a⟩ := by
  unfold Window.fill; rw [dif_pos hm]

/-- Entry (h, r, l) of the first input buffer at point t, where moved, is entry (h, 2048 t + r, l) of the whole array. -/
theorem in0_at (c : Dev nD) (t : Fin cfg0.N) (h : Fin 2) (r : Fin 2048) (l : Fin 128) (p : Fin 31250)
    (hm : win0_0.moved (grid0.coords t) (ix3 h r l) = true) (hp : p.val = t.val * 2048 + r.val) :
    in0 m c t (ix3 h r l) = V m c main_v4 (ix3 h p l) := by
  obtain ⟨-, -, e0, e1, e2, -⟩ := idx t
  unfold in0
  rw [fill_moved win0_0 _ _ _ _ hm]
  unfold blk0
  rw [View.read_apply, cast_eq]
  refine congrArg (V m c main_v4) (funext fun a => Fin.ext ?_)
  match a with
  | ⟨0, _⟩ => show win0_0.index t 0 * 2 + 1 * h.val = h.val; omega
  | ⟨1, _⟩ => show win0_0.index t 1 * 2048 + 1 * r.val = p.val; omega
  | ⟨2, _⟩ => show win0_0.index t 2 * 128 + 1 * l.val = l.val; omega

/-- The same of the second input buffer. -/
theorem in1_at (c : Dev nD) (t : Fin cfg0.N) (h : Fin 2) (r : Fin 2048) (l : Fin 128) (p : Fin 31250)
    (hm : win0_1.moved (grid0.coords t) (ix3 h r l) = true) (hp : p.val = t.val * 2048 + r.val) :
    in1 m c t (ix3 h r l) = V m c main_v5 (ix3 h p l) := by
  obtain ⟨-, -, -, -, -, e0, e1, e2, -⟩ := idx t
  unfold in1
  rw [fill_moved win0_1 _ _ _ _ hm]
  unfold blk1
  rw [View.read_apply, cast_eq]
  refine congrArg (V m c main_v5) (funext fun a => Fin.ext ?_)
  match a with
  | ⟨0, _⟩ => show win0_1.index t 0 * 2 + 1 * h.val = h.val; omega
  | ⟨1, _⟩ => show win0_1.index t 1 * 2048 + 1 * r.val = p.val; omega
  | ⟨2, _⟩ => show win0_1.index t 2 * 128 + 1 * l.val = l.val; omega

/-- Entry (r, l) of the weights buffer at point t, where moved, is entry (2048 t + r, l) of the whole array. -/
theorem in2_at (c : Dev nD) (t : Fin cfg0.N) (r : Fin 2048) (l : Fin 128) (p : Fin 31250)
    (hm : win0_2.moved (grid0.coords t) (ix2 r l) = true) (hp : p.val = t.val * 2048 + r.val) :
    in2 m c t (ix2 r l) = V m c main_v6 (ix2 p l) := by
  obtain ⟨-, -, -, -, -, -, -, -, e0, e1⟩ := idx t
  unfold in2
  rw [fill_moved win0_2 _ _ _ _ hm]
  unfold blk2
  rw [View.read_apply, cast_eq]
  refine congrArg (V m c main_v6) (funext fun a => Fin.ext ?_)
  match a with
  | ⟨0, _⟩ => show win0_2.index t 0 * 2048 + 1 * r.val = p.val; omega
  | ⟨1, _⟩ => show win0_2.index t 1 * 128 + 1 * l.val = l.val; omega

/-- What point t writes back is block t of the closed form of the three whole arrays. -/
theorem flushed3_eq (c : Dev nD) (t : Fin cfg0.N) :
    (dats m 0 c).flushed 3 t
      = ((cfg0.win 3).blk t).view.read (Elt F) (Cert.KerTerm.G (V m c main_v4) (V m c main_v5) (V m c main_v6)) := by
  show win0_3.cut (grid0.coords t) ((dats m 0 c).after 3 t) = _
  rw [after_3]
  obtain ⟨h00, h02, h01, h10, h12, h11, h20, h21, h31⟩ := cuts t
  obtain ⟨e30, e31, -⟩ := idx t
  have hrows := rows t
  funext j
  have hr : (j 0).val < 2048 := Nat.lt_of_lt_of_le (j 0).isLt (win0_3.xsize_le (grid0.coords t) 0)
  have hl : (j 1).val < 128 := Nat.lt_of_lt_of_le (j 1).isLt (win0_3.xsize_le (grid0.coords t) 1)
  have hj0 : (j 0).val < win0_3.xsize (grid0.coords t) 0 := (j 0).isLt
  have hp : t.val * 2048 + (j 0).val < 31250 := by omega
  have hj : win0_3.xinj (grid0.coords t) j = ix2 (⟨(j 0).val, hr⟩ : Fin 2048) (⟨(j 1).val, hl⟩ : Fin 128) :=
    funext fun a => Fin.ext (by match a with | ⟨0, _⟩ => rfl | ⟨1, _⟩ => rfl)
  have hi : ((cfg0.win 3).blk t).view.emb j = ix2 (⟨t.val * 2048 + (j 0).val, hp⟩ : Fin 31250) (⟨(j 1).val, hl⟩ : Fin 128) :=
    funext fun a => Fin.ext (by
      match a with
      | ⟨0, _⟩ => show win0_3.index t 0 * 2048 + 1 * (j 0).val = t.val * 2048 + (j 0).val; omega
      | ⟨1, _⟩ => show win0_3.index t 1 * 128 + 1 * (j 1).val = (j 1).val; omega)
  have m0 : ∀ h : Fin 2, win0_0.moved (grid0.coords t) (ix3 h (⟨(j 0).val, hr⟩ : Fin 2048) (⟨(j 1).val, hl⟩ : Fin 128)) = true :=
    fun h => (win0_0.moved_iff _ _).mpr fun a => by
      match a with
      | ⟨0, _⟩ => show h.val < win0_0.xsize (grid0.coords t) 0; rw [h00]; exact h.isLt
      | ⟨1, _⟩ => show (j 0).val < win0_0.xsize (grid0.coords t) 1; rw [h01]; exact (j 0).isLt
      | ⟨2, _⟩ => show (j 1).val < win0_0.xsize (grid0.coords t) 2; rw [h02]; exact hl
  have m1 : ∀ h : Fin 2, win0_1.moved (grid0.coords t) (ix3 h (⟨(j 0).val, hr⟩ : Fin 2048) (⟨(j 1).val, hl⟩ : Fin 128)) = true :=
    fun h => (win0_1.moved_iff _ _).mpr fun a => by
      match a with
      | ⟨0, _⟩ => show h.val < win0_1.xsize (grid0.coords t) 0; rw [h10]; exact h.isLt
      | ⟨1, _⟩ => show (j 0).val < win0_1.xsize (grid0.coords t) 1; rw [h11]; exact (j 0).isLt
      | ⟨2, _⟩ => show (j 1).val < win0_1.xsize (grid0.coords t) 2; rw [h12]; exact hl
  have m2 : win0_2.moved (grid0.coords t) (ix2 (⟨(j 0).val, hr⟩ : Fin 2048) (⟨(j 1).val, hl⟩ : Fin 128)) = true :=
    (win0_2.moved_iff _ _).mpr fun a => by
      match a with
      | ⟨0, _⟩ => show (j 0).val < win0_2.xsize (grid0.coords t) 0; rw [h20]; exact (j 0).isLt
      | ⟨1, _⟩ => show (j 1).val < win0_2.xsize (grid0.coords t) 1; rw [h21]; exact hl
  rw [View.read_apply, cast_eq, hi]
  show out3 m c t (win0_3.xinj (grid0.coords t) j) = _
  rw [hj]
  unfold out3
  rw [outOf_apply, in0_at m c t 0 _ _ ⟨_, hp⟩ (m0 0) rfl, in0_at m c t 1 _ _ ⟨_, hp⟩ (m0 1) rfl,
    in1_at m c t 0 _ _ ⟨_, hp⟩ (m1 0) rfl, in1_at m c t 1 _ _ ⟨_, hp⟩ (m1 1) rfl, in2_at m c t _ _ ⟨_, hp⟩ m2 rfl]
  rfl

/-- Every index of the result array lies in the block of the point its row falls to. -/
theorem cover3 (i : S31250x128.Idx) :
    ∃ t : Fin cfg0.N, (cfg0.win 3).flush t = true ∧ i ∈ ((cfg0.win 3).blk t).view.set := by
  have hi0 : (i 0).val < 31250 := (i 0).isLt
  have hi1 : (i 1).val < 128 := (i 1).isLt
  obtain ⟨t, ht⟩ : ∃ t : Fin cfg0.N, t.val = (i 0).val / 2048 :=
    ⟨⟨(i 0).val / 2048, by rw [show cfg0.N = 16 from N_0]; omega⟩, rfl⟩
  refine ⟨t, flush0_3 t, ?_⟩
  obtain ⟨-, -, -, -, -, -, -, -, h31⟩ := cuts t
  obtain ⟨e30, e31, -⟩ := idx t
  have hrows := rows t
  show i ∈ ((View.whole main_v7).slice (win0_3.rect t)).set
  rw [View.set_slice_whole, Rect.mem_set_unit]
  intro a
  match a with
  | ⟨0, _⟩ =>
    show win0_3.index t 0 * 2048 ≤ (i 0).val ∧ (i 0).val < win0_3.index t 0 * 2048 + win0_3.xsize (grid0.coords t) 0
    omega
  | ⟨1, _⟩ =>
    show win0_3.index t 1 * 128 ≤ (i 1).val ∧ (i 1).val < win0_3.index t 1 * 128 + win0_3.xsize (grid0.coords t) 1
    omega

/-- The result array after the run is the closed form of the three whole operand arrays. -/
theorem final3 (c : Dev nD) :
    (dats m 0 c).arrAt 3 cfg0.N = Cert.KerTerm.G (V m c main_v4) (V m c main_v5) (V m c main_v6) :=
  (dats m 0 c).arrAt_eq_of_cover 3 _ (fun t _ => flushed3_eq m c t) cover3

end Cert.KernelIdeal.Hand

end
-- ==== Proof.KerHost.lean ====
/-
  What the lines around the region compute, as functions of the argument arrays.

  Before the region: the first two columns of each [N × 5] matrix are flattened row-major to 2 N entries and split
  into two halves of [31250 × 128]; the weights are laid out as [31250 × 128].  After the region: the region's
  [31250 × 128] result, flattened back to N entries, is added into 500 zeros at the days, and the closing expression
  of the 500 sums follows.  Each statement reads one array after its lines, line by line, down to the arrays the
  lines start from.
-/
import proofs.«416177_j73589969650309_3_alg».proof.Proof.Gen.KernelIdeal.Frame
import proofs.«416177_j73589969650309_3_alg».proof.Proof.KerTerm
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.Pipeline (Dat)

variable {F : FTy → Type} [FloatOps F] (m : (ℓ : Loc nD τ sig) → Buf (Elt F) ℓ)

/-- Before the region, the first operand array holds the two halves of the first matrix's flattened two columns. -/
theorem V_v4 (c : Dev nD) : Gen.V m c main_v4 = Cert.KerTerm.halves (m ((c : Thread nD τ).loc main_arg0)) := by
  show StableHlo.after hostOps0 (fun b => m (c, b)) (Proc.devRef .tc main_v4) = _
  after_results
  rfl

/-- Before the region, the second operand array holds the two halves of the second matrix's flattened two columns. -/
theorem V_v5 (c : Dev nD) : Gen.V m c main_v5 = Cert.KerTerm.halves (m ((c : Thread nD τ).loc main_arg1)) := by
  show StableHlo.after hostOps0 (fun b => m (c, b)) (Proc.devRef .tc main_v5) = _
  after_results
  rfl

/-- Before the region, the third operand array holds the weights laid out as [31250 × 128]. -/
theorem V_v6 (c : Dev nD) : Gen.V m c main_v6 = Cert.KerTerm.rows128 (m ((c : Thread nD τ).loc main_arg2)) := by
  show StableHlo.after hostOps0 (fun b => m (c, b)) (Proc.devRef .tc main_v6) = _
  after_results
  rfl

/-- After the lines that follow the region, the result holds the closing expression of the 500 day sums: the
    region's result array, flattened to N entries, added into zeros at the days. -/
theorem tail_v19 (dats : (p : Fin 1) → (c : Dev nD) → Dat τ (Elt F) Unit ℕ (UR sig nD τ) ℕ (cfgs p) c) (c : Dev nD) :
    Pipeline.afterTail₀ cfgs dats 0 (Gen.V0 m) [hostOps1, hostOps1_1, hostOps1_2] c main_v19
      = Cert.KerTerm.closingK (Cert.KerTerm.kerPiOf (m ((c : Thread nD τ).loc main_arg3)) ((dats 0 c).arrAt 3 cfg0.N)) := by
  unfold Pipeline.afterTail₀
  simp only [hostOps1, hostOps1_1, hostOps1_2, List.flatten_cons, List.flatten_nil, List.append_nil, List.cons_append, List.nil_append]
  generalize hW : Pipeline.withArrays (cfgs 0).spec c (Gen.V0 m c) (fun w => (dats 0 c).arrAt w (cfgs 0).N) = W
  have h7 : W (Proc.devRef .tc main_v7) = (dats 0 c).arrAt 3 cfg0.N := by
    subst hW
    exact Pipeline.withArrays_arr spec0 launch0.win.arr_inj c _ _ 3
  have h3 : W (Proc.devRef .tc main_arg3) = m ((c : Thread nD τ).loc main_arg3) := by
    subst hW
    rw [Pipeline.withArrays_of_ne _ c (V0 m c) _ main_arg3 (by exact (by decide : ∀ w, Pipeline.arrRef spec0 w ≠ main_arg3))]
    exact V_main_arg3 m c
  after_results_simp
  rw [h7, h3]
  unfold Cert.KerTerm.closingK Cert.KerTerm.kerPiOf
  rfl

end Cert.KernelIdeal.Host

end
-- ==== Proof.KerRun.lean ====
/-
  The kernel program's run with its result named.

  The run leaves, in the result buffer, what the host operations after the region compute from the region's result
  array; that array is the entrywise function G of the three operand arrays, which the host operations before the
  region made from the arguments (the two flattened column pairs split in halves, the weights in rows of 128).
  Together: the result is the pure function kerOut of the four argument arrays, and those end unchanged.
-/
import proofs.«416177_j73589969650309_3_alg».proof.Proof.BodyIII
import proofs.«416177_j73589969650309_3_alg».proof.Proof.KerCover
import proofs.«416177_j73589969650309_3_alg».proof.Proof.KerHost

noncomputable section

namespace Cert.KerRun

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- What the host operations after the region leave in the result buffer is kerOut of the arguments. -/
theorem value (c : Dev nD) :
    Pipeline.afterTail₀ cfgs (Cert.KernelIdeal.Hand.dats m) 0 (V0 m) [hostOps1, hostOps1_1, hostOps1_2] c main_v19
      = Cert.KerTerm.kerOut (F := F) (m ((c.tc : Thread nD τ).loc main_arg0)) (m ((c.tc : Thread nD τ).loc main_arg1))
          (m ((c.tc : Thread nD τ).loc main_arg2)) (m ((c.tc : Thread nD τ).loc main_arg3)) := by
  rw [Cert.KernelIdeal.Host.tail_v19, Cert.KernelIdeal.Hand.final3, Cert.KernelIdeal.Host.V_v4, Cert.KernelIdeal.Host.V_v5,
    Cert.KernelIdeal.Host.V_v6]
  rfl

/-- Every weakly fair execution terminates with the result buffer at kerOut of the arguments and the arguments unchanged. -/
theorem run :
    θ_run defs (onTc (τ := τ) (main (F := F))) ⟨m, fun _ => 0, ρ⟩ (fun r => ∀ c : Dev nD,
      r.2.mem ((c.tc : Thread nD τ).loc main_v19)
        = Cert.KerTerm.kerOut (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v19 (Pipeline.mem_restRefs_of main_v19 (by decide) (by decide))).trans (value m c),
      ((h c).2 main_arg0 (Pipeline.mem_restRefs_of main_arg0 (by decide) (by decide))).trans (W_main_arg0 m (Cert.KernelIdeal.Hand.dats m) c),
      ((h c).2 main_arg1 (Pipeline.mem_restRefs_of main_arg1 (by decide) (by decide))).trans (W_main_arg1 m (Cert.KernelIdeal.Hand.dats m) c),
      ((h c).2 main_arg2 (Pipeline.mem_restRefs_of main_arg2 (by decide) (by decide))).trans (W_main_arg2 m (Cert.KernelIdeal.Hand.dats m) c),
      ((h c).2 main_arg3 (Pipeline.mem_restRefs_of main_arg3 (by decide) (by decide))).trans (W_main_arg3 m (Cert.KernelIdeal.Hand.dats m) c)⟩)
    (Cert.KernelIdeal.Hand.run_main m ρ)

end Cert.KerRun

end
-- ==== Proof.Spec.lean ====
/-
  What both programs compute, as functions of the four argument arrays, index by index.

  Write u k for entry k of the row-major flatten of the first two columns of an [N × 5] matrix a, that is
  a (k / 2, k % 2), and σ x for the logistic function of 12 · x.  With N = 4000000 rows, weights w and days d:

  * one program adds, into day s, for every row e with d e = s, the number
        w e · (σ (u₀ e) · u₁ e + σ (u₀ (N + e)) · u₁ (N + e));
  * the other adds, into day s, for every flat position k < 2 N with d (k % N) = s, the number
        (w (k % N) · u₁ k) · σ (u₀ k).

  A day outside [0, 500) receives nothing in either.  Both then apply one and the same closing expression to
  the 500 day sums P:   ((−1 · ΣP) · max (0, ΣP)) / Σ P² / 500.
-/
import Idealize.ShloMosaic.PureOps.Ideal
import Idealize.ShloMosaic.Lib.ValueIdx

noncomputable section

open scoped BigOperators

namespace Cert.Spec

open Idealize.ShloMosaic Idealize.ShloMosaic.ValueIdx

/-- The shapes of the argument matrices, of the weight and day vectors, of the day sums and of a scalar. -/
abbrev SA : Shape := ⟨2, ![4000000, 5]⟩
abbrev SW : Shape := ⟨1, ![4000000]⟩
abbrev SP : Shape := ⟨1, ![500]⟩
abbrev S0 : Shape := ⟨0, ![]⟩

/-- Entry k of the row-major flatten of the first two columns: a (k / 2, k % 2). -/
def flat2 (a : FVec Ideal SA .f32) (k : Fin 8000000) : EReal :=
  a (ix2 (⟨k.val / 2, by omega⟩ : Fin 4000000) (⟨k.val % 2, by omega⟩ : Fin 5))

/-- The logistic function of twelve times x. -/
def sg (x : EReal) : EReal := Ideal.logistic (Ideal.ofBits .f32 0x41400000#32 * x)

/-- Row e's contribution in the first arrangement: the weight times the sum of the two halves' products. -/
def contrib (a0 a1 : FVec Ideal SA .f32) (w : FVec Ideal SW .f32) (e : Fin 4000000) : EReal :=
  w (ix1 e) * (sg (flat2 a0 ⟨e.val, by omega⟩) * flat2 a1 ⟨e.val, by omega⟩
    + sg (flat2 a0 ⟨4000000 + e.val, by omega⟩) * flat2 a1 ⟨4000000 + e.val, by omega⟩)

/-- Flat position k's product in the second arrangement. -/
def prod (a0 a1 : FVec Ideal SA .f32) (w : FVec Ideal SW .f32) (k : Fin 8000000) : EReal :=
  (w (ix1 (⟨k.val % 4000000, Nat.mod_lt _ (by omega)⟩ : Fin 4000000)) * flat2 a1 k) * sg (flat2 a0 k)

/-- The day sums of the first arrangement: day s collects the rows whose day, read signed, is s. -/
def PiK (a0 a1 : FVec Ideal SA .f32) (w : FVec Ideal SW .f32) (d : IVec SW 32) : FVec Ideal SP .f32 :=
  fun s => ∑ e ∈ Finset.univ.filter (fun e : Fin 4000000 => (d (ix1 e)).toInt = (((s 0).val : ℕ) : ℤ)), contrib a0 a1 w e

/-- The day sums of the second arrangement: day s collects the flat positions k whose row k % N has day s. -/
def PiR (a0 a1 : FVec Ideal SA .f32) (w : FVec Ideal SW .f32) (d : IVec SW 32) : FVec Ideal SP .f32 :=
  fun s => ∑ k ∈ Finset.univ.filter (fun k : Fin 8000000 =>
      (d (ix1 (⟨k.val % 4000000, Nat.mod_lt _ (by omega)⟩ : Fin 4000000))).toInt = (((s 0).val : ℕ) : ℤ)), prod a0 a1 w k

/-- The closing expression both programs apply to the day sums. -/
def tail (hr : SP.ReducesTo [0] S0) (h0 : 0 < S0.numel) (P : FVec Ideal SP .f32) : FVec Ideal S0 .f32 :=
  Host.divf
    (Host.divf
      (mulf
        (mulf (constant (F := Ideal) S0 .f32 0xBF800000#32) (Host.reduceAdd P (constant (F := Ideal) S0 .f32 0x00000000#32) hr h0))
        (maximumf (id (constant (F := Ideal) S0 .f32 0x00000000#32)) (Host.reduceAdd P (constant (F := Ideal) S0 .f32 0x00000000#32) hr h0)))
      (Host.reduceAdd (mulf P P) (constant (F := Ideal) S0 .f32 0x00000000#32) hr h0))
    (constant (F := Ideal) S0 .f32 0x43FA0000#32)

end Cert.Spec

end
-- ==== Proof.LibScatterGather.lean ====
/-
  Three host operations read at one element, for any extents: a gather of whole rows of a matrix at a column of row
  numbers, and an accumulating scatter into a vector or into the rows of a matrix at a column of positions.

  A gather clamps the row number it reads (signed) into the matrix; a scatter reads the position signed and does NOT
  clamp it: an update whose position is outside the target is dropped.  At the exact (extended-real) instance the
  accumulating scatter is the target's entry plus the sum of the updates that land on it.
-/
import Idealize.ShloMosaic.PureOps.Ideal
import Idealize.ShloMosaic.PureOps.Contract
import Idealize.ShloMosaic.Lib.ValueIdx
import Idealize.ShloMosaic.Lib.StableHlo.Predicate

noncomputable section

open scoped BigOperators

namespace Cert.LibSG

open Idealize.ShloMosaic Idealize.ShloMosaic.ValueIdx Idealize.ShloMosaic.StableHlo.Predicate

/-- Rows gathered from an [N × D] matrix at an [n × 1] column of row numbers: entry (p, f) of the result is the matrix's
    entry (row p's number read signed and clamped into [0, N − 1], f). -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (p : Fin n) (f : Fin D) (hN : 0 < N) :
    Host.gather d x idx (ix2 p f) = x (ix2 (⟨min (idx (ixP p)).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![n, D]⟩) [1] [0] [] [] [0] 1 ![1, D] wf).siIdx (ix2 p f) c = ixP p := by
      intro c
      funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.zero_add]
    rfl

/-- An update lands on operand index i exactly when, on every axis, its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrArg (fun g : s.Idx => (g a).val) (Option.some.inj e)
      simp only at e'
      have := h a
      omega
    · intro e
      congr 1
      funext a
      refine Fin.ext ?_
      have := e a
      simp only
      omega
  · next h =>
    constructor
    · intro e; cases e
    · intro e
      exfalso
      apply h
      intro a
      have := e a
      have := (i a).isLt
      omega

/-- An accumulating scatter into an [N] vector at an [n × 1] column of positions, at the exact instance: entry i is the
    target's entry plus the sum of the updates whose position, read signed, is i. -/
theorem scatterAdd_flat {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ixP e)).toInt = (i.val : ℤ)), upd (ix1 e) := by
  obtain ⟨uw, iw, sd, iv, wf⟩ := d
  dsimp only at huw hiw hsd hivd
  subst huw hiw hsd hivd
  have hstart : ∀ j : (⟨1, ![n]⟩ : Shape).Idx,
      (ScatterDims.mk (s := ⟨1, ![N]⟩) (si := ⟨2, ![n, 1]⟩) (u := ⟨1, ![n]⟩) [] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hwin : ∀ j : (⟨1, ![n]⟩ : Shape).Idx,
      (ScatterDims.mk (s := ⟨1, ![N]⟩) (si := ⟨2, ![n, 1]⟩) (u := ⟨1, ![n]⟩) [] [0] [0] 1 wf).window j 0 = 0 := by
    intro j
    unfold ScatterDims.window
    exact dif_neg (show (0 : Fin 1) ∉ (List.finRange 1).filter (fun a => a ∉ [(0 : Fin 1)]) by decide)
  have hiff : ∀ j : (⟨1, ![n]⟩ : Shape).Idx,
      (ScatterDims.mk (s := ⟨1, ![N]⟩) (si := ⟨2, ![n, 1]⟩) (u := ⟨1, ![n]⟩) [] [0] [0] 1 wf).resultIdx? j idx = some (ix1 i)
        ↔ (idx (ixP (j 0))).toInt = (i.val : ℤ) := by
    intro j
    rw [resultIdx?_eq_some_iff, Fin.forall_fin_one, hstart, hwin]
    simp
  show x (ix1 i) + _ = _
  congr 1
  refine Finset.sum_nbij' (fun j => j 0) (fun e => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

/-- An accumulating scatter of [n × D] rows into the rows of an [N × D] matrix at an [n × 1] column of row positions, at
    the exact instance: entry (i, f) is the target's entry plus the sum, over the update rows whose position read signed
    is i, of their entry f. -/
theorem scatterAdd_rows {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![n, 1]⟩ w) (upd : FVec Ideal ⟨2, ![n, D]⟩ .f32) (i : Fin N) (f : Fin D) :
    Host.scatterAdd (F := Ideal) d x idx upd (ix2 i f)
      = x (ix2 i f) + ∑ e ∈ Finset.univ.filter (fun e : Fin n => (idx (ixP e)).toInt = (i.val : ℤ)), upd (ix2 e f) := by
  obtain ⟨uw, iw, sd, iv, wf⟩ := d
  dsimp only at huw hiw hsd hivd
  subst huw hiw hsd hivd
  have hstart0 : ∀ j : (⟨2, ![n, D]⟩ : Shape).Idx,
      (ScatterDims.mk (s := ⟨2, ![N, D]⟩) (si := ⟨2, ![n, 1]⟩) (u := ⟨2, ![n, D]⟩) [1] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hstart1 : ∀ j : (⟨2, ![n, D]⟩ : Shape).Idx,
      (ScatterDims.mk (s := ⟨2, ![N, D]⟩) (si := ⟨2, ![n, 1]⟩) (u := ⟨2, ![n, D]⟩) [1] [0] [0] 1 wf).start j idx 1 = 0 := by
    intro j
    unfold ScatterDims.start
    rw [dif_neg (show (1 : Fin 2) ∉ [0] by decide)]
  have hwin0 : ∀ j : (⟨2, ![n, D]⟩ : Shape).Idx,
      (ScatterDims.mk (s := ⟨2, ![N, D]⟩) (si := ⟨2, ![n, 1]⟩) (u := ⟨2, ![n, D]⟩) [1] [0] [0] 1 wf).window j 0 = 0 := by
    intro j
    unfold ScatterDims.window
    exact dif_neg (show (0 : Fin 2) ∉ (List.finRange 2).filter (fun a => a ∉ [(0 : Fin 2)]) by decide)
  have hwin1 : ∀ j : (⟨2, ![n, D]⟩ : Shape).Idx,
      (ScatterDims.mk (s := ⟨2, ![N, D]⟩) (si := ⟨2, ![n, 1]⟩) (u := ⟨2, ![n, D]⟩) [1] [0] [0] 1 wf).window j 1 = (j 1).val := by
    intro j
    unfold ScatterDims.window
    exact (dif_pos (show (1 : Fin 2) ∈ (List.finRange 2).filter (fun a => a ∉ [(0 : Fin 2)]) by decide)).trans rfl
  have hiff : ∀ j : (⟨2, ![n, D]⟩ : Shape).Idx,
      (ScatterDims.mk (s := ⟨2, ![N, D]⟩) (si := ⟨2, ![n, 1]⟩) (u := ⟨2, ![n, D]⟩) [1] [0] [0] 1 wf).resultIdx? j idx = some (ix2 i f)
        ↔ (idx (ixP (j 0))).toInt = (i.val : ℤ) ∧ j 1 = f := by
    intro j
    rw [resultIdx?_eq_some_iff, Fin.forall_fin_two, hstart0, hwin0, hstart1, hwin1]
    show (idx (ixP (j 0))).toInt + ((0 : ℕ) : ℤ) = (i.val : ℤ) ∧ (0 : ℤ) + ((j 1).val : ℤ) = (f.val : ℤ) ↔ _
    constructor
    · rintro ⟨h0, h1⟩
      exact ⟨by omega, Fin.ext (by omega)⟩
    · rintro ⟨h0, h1⟩
      subst h1
      exact ⟨by omega, by omega⟩
  show x (ix2 i f) + _ = _
  congr 1
  refine Finset.sum_nbij' (fun j => j 0) (fun e => ix2 e f) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e f)).2 ⟨(Finset.mem_filter.1 he).2, rfl⟩⟩
  · intro j hj
    have h1 := ((hiff j).1 (Finset.mem_filter.1 hj).2).2
    rw [← h1]
    exact (eq_ix2 j).symm
  · intro e _
    rfl
  · intro j hj
    have h1 := ((hiff j).1 (Finset.mem_filter.1 hj).2).2
    rw [← h1]
    exact congrArg upd (eq_ix2 j)

end Cert.LibSG

end
-- ==== Proof.KerVal.lean ====
/-
  The kernel program's result read index by index at the exact (extended-real) instance.

  Write u k for entry k of the row-major flatten of the first two columns of an [N × 5] matrix a, that is
  a (k / 2, k % 2).  Cut into two halves of [31250 × 128], half h at (r, l) is u (h · N + r · 128 + l); the weights laid
  out as [31250 × 128] at (r, l) are w (r · 128 + l).  With r = e / 128 and l = e % 128 the entry-by-entry function at
  (r, l) is w e · (σ (u₀ e) · u₁ e + σ (u₀ (N + e)) · u₁ (N + e)), and the sum added into day s runs over the rows e with
  d e = s.  The result is the closing expression of those 500 sums.
-/
import proofs.«416177_j73589969650309_3_alg».proof.Proof.KerTerm
import proofs.«416177_j73589969650309_3_alg».proof.Proof.Spec
import proofs.«416177_j73589969650309_3_alg».proof.Proof.LibScatterGather
import Idealize.ShloMosaic.Lib.Pipeline.Value
import Idealize.ShloMosaic.PureOps.Ideal.Laws

noncomputable section

open scoped BigOperators

namespace Cert.KerVal

open Idealize.ShloMosaic Idealize.ShloMosaic.ValueIdx Idealize.ShloMosaic.StableHlo.Predicate
open Cert.KernelIdeal Cert.KerTerm

/-- Half h of the flattened first two columns at (r, l) is entry K = h · N + r · 128 + l of the flatten: a (K / 2, K % 2). -/
theorem halves_at [Facts] (a : FVec Ideal S4000000x5 .f32) (h : Fin 2) (r : Fin 31250) (l : Fin 128) (K : Fin 8000000)
    (hK : K.val = h.val * 4000000 + r.val * 128 + l.val) :
    halves (F := Ideal) a (ix3 h r l) = Cert.Spec.flat2 a K := by
  unfold halves
  refine (shapeCast_apply _ _ (ix3 h r l) (ix1 K) ?_).trans ?_
  · rw [Shape.rowMajor_val_one, Shape.rowMajor_val_three]
    show K.val = (h.val * 31250 + r.val) * 128 + l.val
    omega
  refine (shapeCast_apply _ _ (ix1 K) (ix2 (⟨K.val / 2, by omega⟩ : Fin 4000000) (⟨K.val % 2, by omega⟩ : Fin 2)) ?_).trans ?_
  · rw [Shape.rowMajor_val_two, Shape.rowMajor_val_one]
    show K.val / 2 * 2 + K.val % 2 = K.val
    omega
  refine extractStridedSlice_apply _ _ _ _ (ix2 (⟨K.val / 2, by omega⟩ : Fin 4000000) (⟨K.val % 2, by omega⟩ : Fin 5)) ?_
  intro b
  match b with
  | ⟨0, _⟩ =>
    show K.val / 2 = 0 + K.val / 2
    omega
  | ⟨1, _⟩ =>
    show K.val % 2 = 0 + K.val % 2
    omega

/-- The weights laid out as [31250 × 128], at (e / 128, e % 128): the weight of row e. -/
theorem rows128_apply [Facts] (w : FVec Ideal S4000000 .f32) (e : Fin 4000000) :
    rows128 (F := Ideal) w (ix2 (⟨e.val / 128, by omega⟩ : Fin 31250) (⟨e.val % 128, by omega⟩ : Fin 128)) = w (ix1 e) := by
  unfold rows128
  refine shapeCast_apply _ _ _ (ix1 e) ?_
  rw [Shape.rowMajor_val_one, Shape.rowMajor_val_two]
  show e.val = e.val / 128 * 128 + e.val % 128
  omega

/-- A [31250 × 128] array flattened to N entries, at e: the array at (e / 128, e % 128). -/
theorem unflat_apply [Facts] {α : Type} (y : S31250x128.Idx → α) (e : Fin 4000000) :
    shapeCast S4000000 y Facts₀.shapeCasts_S31250x128_S4000000 (ix1 e)
      = y (ix2 (⟨e.val / 128, by omega⟩ : Fin 31250) (⟨e.val % 128, by omega⟩ : Fin 128)) := by
  refine shapeCast_apply _ _ _ _ ?_
  rw [Shape.rowMajor_val_two, Shape.rowMajor_val_one]
  show e.val / 128 * 128 + e.val % 128 = e.val
  omega

/-- The entry-by-entry function at (e / 128, e % 128) of the halves and the laid-out weights is row e's contribution. -/
theorem G_apply [Facts] (a0 a1 : FVec Ideal S4000000x5 .f32) (a2 : FVec Ideal S4000000 .f32) (e : Fin 4000000) :
    G (F := Ideal) (halves (F := Ideal) a0) (halves (F := Ideal) a1) (rows128 (F := Ideal) a2)
        (ix2 (⟨e.val / 128, by omega⟩ : Fin 31250) (⟨e.val % 128, by omega⟩ : Fin 128))
      = Cert.Spec.contrib a0 a1 a2 e := by
  have hlo : ∀ a : FVec Ideal S4000000x5 .f32,
      halves (F := Ideal) a (ix3 (0 : Fin 2) (⟨e.val / 128, by omega⟩ : Fin 31250) (⟨e.val % 128, by omega⟩ : Fin 128))
        = Cert.Spec.flat2 a ⟨e.val, by omega⟩ := fun a =>
    halves_at a 0 _ _ _ (by show e.val = 0 * 4000000 + e.val / 128 * 128 + e.val % 128; omega)
  have hhi : ∀ a : FVec Ideal S4000000x5 .f32,
      halves (F := Ideal) a (ix3 (1 : Fin 2) (⟨e.val / 128, by omega⟩ : Fin 31250) (⟨e.val % 128, by omega⟩ : Fin 128))
        = Cert.Spec.flat2 a ⟨4000000 + e.val, by omega⟩ := fun a =>
    halves_at a 1 _ _ _ (by show 4000000 + e.val = 1 * 4000000 + e.val / 128 * 128 + e.val % 128; omega)
  show rows128 (F := Ideal) a2 (ix2 (⟨e.val / 128, by omega⟩ : Fin 31250) (⟨e.val % 128, by omega⟩ : Fin 128))
      * (Cert.Spec.sg (halves (F := Ideal) a0 (ix3 (0 : Fin 2) (⟨e.val / 128, by omega⟩ : Fin 31250) (⟨e.val % 128, by omega⟩ : Fin 128)))
          * halves (F := Ideal) a1 (ix3 (0 : Fin 2) (⟨e.val / 128, by omega⟩ : Fin 31250) (⟨e.val % 128, by omega⟩ : Fin 128))
        + Cert.Spec.sg (halves (F := Ideal) a0 (ix3 (1 : Fin 2) (⟨e.val / 128, by omega⟩ : Fin 31250) (⟨e.val % 128, by omega⟩ : Fin 128)))
          * halves (F := Ideal) a1 (ix3 (1 : Fin 2) (⟨e.val / 128, by omega⟩ : Fin 31250) (⟨e.val % 128, by omega⟩ : Fin 128))) = _
  rw [rows128_apply, hlo a0, hlo a1, hhi a0, hhi a1]
  rfl

/-- The 500 day sums: day s collects the rows e whose day is s. -/
theorem kerPi_eq [Facts] (a0 a1 : FVec Ideal S4000000x5 .f32) (a2 : FVec Ideal S4000000 .f32) (a3 : IVec S4000000 32) :
    kerPiOf (F := Ideal) a3 (G (F := Ideal) (halves (F := Ideal) a0) (halves (F := Ideal) a1) (rows128 (F := Ideal) a2))
      = Cert.Spec.PiK a0 a1 a2 a3 := by
  funext s
  obtain ⟨i, rfl⟩ : ∃ i : Fin 500, s = ix1 i := ⟨s 0, eq_ix1 s⟩
  unfold kerPiOf
  rw [Cert.LibSG.scatterAdd_flat (N := 500) (n := 4000000) _ rfl rfl rfl rfl]
  rw [show broadcastInDim S500 ![] Facts₀.bcast_S_S500 (constant (F := Ideal) S_ .f32 0x00000000#32) (ix1 i) = 0
    from Ideal.ofBits_zero_f32, zero_add]
  show _ = ∑ e ∈ Finset.univ.filter (fun e : Fin 4000000 => (a3 (ix1 e)).toInt = ((i.val : ℕ) : ℤ)), Cert.Spec.contrib a0 a1 a2 e
  have hd : ∀ e : Fin 4000000,
      broadcastInDim S4000000x1 ![0] Facts₀.bcast_S4000000_S4000000x1_0 a3 (ixP e) = a3 (ix1 e) := by
    intro e
    refine broadcastInDim_apply _ _ _ _ (ix1 e) ?_
    intro b
    match b with
    | ⟨0, _⟩ => rfl
  refine Finset.sum_congr (Finset.filter_congr fun e _ => by rw [hd]) fun e _ => ?_
  rw [unflat_apply]
  exact G_apply a0 a1 a2 e

/-- The kernel program's result is the closing expression of the day sums of the first arrangement. -/
theorem kerOut_eq [Cert.KernelIdeal.Facts] (a0 a1 : FVec Ideal Cert.KernelIdeal.S4000000x5 .f32) (a2 : FVec Ideal Cert.KernelIdeal.S4000000 .f32) (a3 : IVec Cert.KernelIdeal.S4000000 32) :
    Cert.KerTerm.kerOut (F := Ideal) a0 a1 a2 a3
      = Cert.Spec.tail Cert.KernelIdeal.Facts₀.reducesTo_S500_S_d0 Cert.KernelIdeal.Facts₀.h_S_ (Cert.Spec.PiK a0 a1 a2 a3) := by
  show Cert.Spec.tail Cert.KernelIdeal.Facts₀.reducesTo_S500_S_d0 Cert.KernelIdeal.Facts₀.h_S_
    (kerPiOf (F := Ideal) a3 (G (F := Ideal) (halves (F := Ideal) a0) (halves (F := Ideal) a1) (rows128 (F := Ideal) a2))) = _
  rw [kerPi_eq]

end Cert.KerVal

end
-- ==== Proof.RefTerm.lean ====
/-
  The reference's result as one function of the four argument arrays: the composition, in program order, of the
  functions its operations apply.

  Column numbers c = [0, 1] (with 5 added where negative) select the first two columns of each [N × 5] matrix;
  the first selection goes through x ↦ 1 / (1 + exp (−(12 · x))); weights and days are repeated twice
  ([N] → [1, N] → [2, N] → [2 N]); the two [N × 2] matrices are flattened row-major to [2 N]; the product
  (weight · second) · first is added into 500 zeros at the repeated days; a closing expression of the 500 sums follows.
-/
import proofs.«416177_j73589969650309_3_alg».proof.ReferenceIdeal

namespace Cert.RefTerm
open Idealize.ShloMosaic Cert.ReferenceIdeal
variable {F : FTy → Type} [FloatOps F] [Cert.ReferenceIdeal.Facts]
open Cert.ReferenceIdeal.Facts₀ Cert.ReferenceIdeal.Facts

/-- The vector c = [0, 1]. -/
noncomputable def cvec : IVec S2 32 := fun i => lit0 (S2.rowMajor i)

/-- The column numbers as a [2, 1] column: c where c ≥ 0, c + 5 where c < 0. -/
noncomputable def colIdx : IVec S2x1 32 :=
  broadcastInDim S2x1 ![0] bcast_S2_S2x1_0
    (select (cmpi .slt cvec (broadcastInDim S2 ![] bcast_S_S2 (constantI S_ 32 0#32)))
      (addi cvec (broadcastInDim S2 ![] bcast_S_S2 (constantI S_ 32 5#32)))
      cvec)

/-- The columns numbered by colIdx of an [N × 5] matrix, as an [N × 2] matrix. -/
noncomputable def cols (a : FVec F S4000000x5 .f32) : FVec F S4000000x2 .f32 :=
  Host.gather gather_S4000000x5_S2x1_S4000000x2_0_1_n_n_1_1_40000001 a colIdx

/-- Entrywise 1 / (1 + exp (−(12 · x))). -/
noncomputable def logi (x : FVec F S4000000x2 .f32) : FVec F S4000000x2 .f32 :=
  Host.divf (broadcastInDim S4000000x2 ![] bcast_S_S4000000x2 (constant S_ .f32 0x3F800000#32))
    (addf (broadcastInDim S4000000x2 ![] bcast_S_S4000000x2 (constant S_ .f32 0x3F800000#32))
      (Host.exp (Host.negf (mulf (broadcastInDim S4000000x2 ![] bcast_S_S4000000x2 (constant S_ .f32 0x41400000#32)) x))))

/-- A length-N vector repeated twice: [N] → [1, N] → [2, N] → [2 N]. -/
noncomputable def tile2 {α : Type} (v : S4000000.Idx → α) : S8000000.Idx → α :=
  shapeCast S8000000
    (broadcastInDim S2x4000000 ![0, 1] bcast_S1x4000000_S2x4000000_0_1
      (shapeCast S1x4000000 v shapeCasts_S4000000_S1x4000000))
    shapeCasts_S2x4000000_S8000000

/-- The row-major flatten [N × 2] → [2 N]. -/
noncomputable def flat {α : Type} (m : S4000000x2.Idx → α) : S8000000.Idx → α :=
  shapeCast S8000000 m shapeCasts_S4000000x2_S8000000

/-- The products (weight · second) · first at the 2 N flat positions. -/
noncomputable def prods (a0 a1 : FVec F S4000000x5 .f32) (a2 : FVec F S4000000 .f32) : FVec F S8000000 .f32 :=
  mulf (mulf (tile2 a2) (flat (cols a1))) (flat (logi (cols a0)))

/-- The repeated days as a [2 N, 1] column. -/
noncomputable def dayCol (a3 : IVec S4000000 32) : IVec S8000000x1 32 :=
  broadcastInDim S8000000x1 ![0] bcast_S8000000_S8000000x1_0 (tile2 a3)

/-- The 500 day sums: the products added into zeros at the repeated days. -/
noncomputable def refPi (a0 a1 : FVec F S4000000x5 .f32) (a2 : FVec F S4000000 .f32) (a3 : IVec S4000000 32) :
    FVec F S500 .f32 :=
  Host.scatterAdd scatter_S500_S8000000x1_S8000000_n_0_0_1
    (broadcastInDim S500 ![] bcast_S_S500 (constant S_ .f32 0x00000000#32)) (dayCol a3) (prods a0 a1 a2)

/-- The closing expression of the day sums P: ((−1 · ΣP) · max (0, ΣP)) / Σ P² / 500. -/
noncomputable def closing (P : FVec F S500 .f32) : FVec F S_ .f32 :=
  Host.divf
    (Host.divf
      (mulf
        (mulf (constant S_ .f32 0xBF800000#32) (Host.reduceAdd P (constant S_ .f32 0x00000000#32) reducesTo_S500_S_d0 h_S_))
        (maximumf (id (constant S_ .f32 0x00000000#32)) (Host.reduceAdd P (constant S_ .f32 0x00000000#32) reducesTo_S500_S_d0 h_S_)))
      (Host.reduceAdd (mulf P P) (constant S_ .f32 0x00000000#32) reducesTo_S500_S_d0 h_S_))
    (constant S_ .f32 0x43FA0000#32)

/-- The reference's result. -/
noncomputable def refOut (a0 a1 : FVec F S4000000x5 .f32) (a2 : FVec F S4000000 .f32) (a3 : IVec S4000000 32) :
    FVec F S_ .f32 :=
  closing (refPi a0 a1 a2 a3)

end Cert.RefTerm
-- ==== Proof.RefRun.lean ====
/-
  The reference program's run, read back.

  The program is a straight line of fifty-eight elementwise, layout, gather, scatter and reduction steps
  (the maximum with zero written as its two steps in place).  Listed in order, the line's run ends with every
  buffer at the composition of the steps' functions over the four argument arrays: the scalar result is
  that composition, and the four arguments are unchanged.
-/
import proofs.«416177_j73589969650309_3_alg».proof.Proof.Gen.ReferenceIdeal
import proofs.«416177_j73589969650309_3_alg».proof.Proof.RefTerm
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The fifty-eight steps, in order. -/
abbrev ops : List (HloOp τ sig (Elt F)) :=
  [ nullary main_c (fun i => lit0 (S2.rowMajor i)),
    nullary main_c_0 (constantI S_ 32 0#32),
    unary main_c_0 main_v0 (broadcastInDim S2 ![] bcast_S_S2 : (⟨S_, .i32⟩ : BufTy).Contents (Elt F) → (⟨S2, .i32⟩ : BufTy).Contents (Elt F)),
    binary main_c main_v0 main_v1 (cmpi .slt : (⟨S2, .i32⟩ : BufTy).Contents (Elt F) → (⟨S2, .i32⟩ : BufTy).Contents (Elt F) → (⟨S2, .i1⟩ : BufTy).Contents (Elt F)),
    nullary main_c_1 (constantI S_ 32 5#32),
    unary main_c_1 main_v2 (broadcastInDim S2 ![] bcast_S_S2 : (⟨S_, .i32⟩ : BufTy).Contents (Elt F) → (⟨S2, .i32⟩ : BufTy).Contents (Elt F)),
    binary main_c main_v2 main_v3 (addi : (⟨S2, .i32⟩ : BufTy).Contents (Elt F) → (⟨S2, .i32⟩ : BufTy).Contents (Elt F) → (⟨S2, .i32⟩ : BufTy).Contents (Elt F)),
    ternary main_v1 main_v3 main_c main_v4 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v4 main_v5 (broadcastInDim S2x1 ![0] bcast_S2_S2x1_0 : (⟨S2, .i32⟩ : BufTy).Contents (Elt F) → (⟨S2x1, .i32⟩ : BufTy).Contents (Elt F)),
    binary main_arg0 main_v5 main_v6 ((fun x i => Host.gather gather_S4000000x5_S2x1_S4000000x2_0_1_n_n_1_1_40000001 x i) : (⟨S4000000x5, .f32⟩ : BufTy).Contents (Elt F) → (⟨S2x1, .i32⟩ : BufTy).Contents (Elt F) → (⟨S4000000x2, .f32⟩ : BufTy).Contents (Elt F)),
    nullary main_cst (constant S_ .f32 0x41400000#32),
    unary main_cst main_v7 (broadcastInDim S4000000x2 ![] bcast_S_S4000000x2 : (⟨S_, .f32⟩ : BufTy).Contents (Elt F) → (⟨S4000000x2, .f32⟩ : BufTy).Contents (Elt F)),
    binary main_v7 main_v6 main_v8 (mulf : (⟨S4000000x2, .f32⟩ : BufTy).Contents (Elt F) → (⟨S4000000x2, .f32⟩ : BufTy).Contents (Elt F) → (⟨S4000000x2, .f32⟩ : BufTy).Contents (Elt F)),
    unary main_v8 main_v9 (Host.negf : (⟨S4000000x2, .f32⟩ : BufTy).Contents (Elt F) → (⟨S4000000x2, .f32⟩ : BufTy).Contents (Elt F)),
    unary main_v9 main_v10 (Host.exp : (⟨S4000000x2, .f32⟩ : BufTy).Contents (Elt F) → (⟨S4000000x2, .f32⟩ : BufTy).Contents (Elt F)),
    nullary main_cst_2 (constant S_ .f32 0x3F800000#32),
    unary main_cst_2 main_v11 (broadcastInDim S4000000x2 ![] bcast_S_S4000000x2 : (⟨S_, .f32⟩ : BufTy).Contents (Elt F) → (⟨S4000000x2, .f32⟩ : BufTy).Contents (Elt F)),
    binary main_v11 main_v10 main_v12 (addf : (⟨S4000000x2, .f32⟩ : BufTy).Contents (Elt F) → (⟨S4000000x2, .f32⟩ : BufTy).Contents (Elt F) → (⟨S4000000x2, .f32⟩ : BufTy).Contents (Elt F)),
    nullary main_cst_3 (constant S_ .f32 0x3F800000#32),
    unary main_cst_3 main_v13 (broadcastInDim S4000000x2 ![] bcast_S_S4000000x2 : (⟨S_, .f32⟩ : BufTy).Contents (Elt F) → (⟨S4000000x2, .f32⟩ : BufTy).Contents (Elt F)),
    binary main_v13 main_v12 main_v14 (Host.divf : (⟨S4000000x2, .f32⟩ : BufTy).Contents (Elt F) → (⟨S4000000x2, .f32⟩ : BufTy).Contents (Elt F) → (⟨S4000000x2, .f32⟩ : BufTy).Contents (Elt F)),
    nullary main_c_4 (constantI S_ 32 0#32),
    unary main_c_4 main_v15 (broadcastInDim S2 ![] bcast_S_S2 : (⟨S_, .i32⟩ : BufTy).Contents (Elt F) → (⟨S2, .i32⟩ : BufTy).Contents (Elt F)),
    binary main_c main_v15 main_v16 (cmpi .slt : (⟨S2, .i32⟩ : BufTy).Contents (Elt F) → (⟨S2, .i32⟩ : BufTy).Contents (Elt F) → (⟨S2, .i1⟩ : BufTy).Contents (Elt F)),
    nullary main_c_5 (constantI S_ 32 5#32),
    unary main_c_5 main_v17 (broadcastInDim S2 ![] bcast_S_S2 : (⟨S_, .i32⟩ : BufTy).Contents (Elt F) → (⟨S2, .i32⟩ : BufTy).Contents (Elt F)),
    binary main_c main_v17 main_v18 (addi : (⟨S2, .i32⟩ : BufTy).Contents (Elt F) → (⟨S2, .i32⟩ : BufTy).Contents (Elt F) → (⟨S2, .i32⟩ : BufTy).Contents (Elt F)),
    ternary main_v16 main_v18 main_c main_v19 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v19 main_v20 (broadcastInDim S2x1 ![0] bcast_S2_S2x1_0 : (⟨S2, .i32⟩ : BufTy).Contents (Elt F) → (⟨S2x1, .i32⟩ : BufTy).Contents (Elt F)),
    binary main_arg1 main_v20 main_v21 ((fun x i => Host.gather gather_S4000000x5_S2x1_S4000000x2_0_1_n_n_1_1_40000001 x i) : (⟨S4000000x5, .f32⟩ : BufTy).Contents (Elt F) → (⟨S2x1, .i32⟩ : BufTy).Contents (Elt F) → (⟨S4000000x2, .f32⟩ : BufTy).Contents (Elt F)),
    reshape main_arg2 main_v22 rfl shapeCasts_S4000000_S1x4000000,
    unary main_v22 main_v23 (broadcastInDim S2x4000000 ![0, 1] bcast_S1x4000000_S2x4000000_0_1 : (⟨S1x4000000, .f32⟩ : BufTy).Contents (Elt F) → (⟨S2x4000000, .f32⟩ : BufTy).Contents (Elt F)),
    reshape main_v23 main_v24 rfl shapeCasts_S2x4000000_S8000000,
    reshape main_arg3 main_v25 rfl shapeCasts_S4000000_S1x4000000,
    unary main_v25 main_v26 (broadcastInDim S2x4000000 ![0, 1] bcast_S1x4000000_S2x4000000_0_1 : (⟨S1x4000000, .i32⟩ : BufTy).Contents (Elt F) → (⟨S2x4000000, .i32⟩ : BufTy).Contents (Elt F)),
    reshape main_v26 main_v27 rfl shapeCasts_S2x4000000_S8000000,
    reshape main_v14 main_v28 rfl shapeCasts_S4000000x2_S8000000,
    reshape main_v21 main_v29 rfl shapeCasts_S4000000x2_S8000000,
    binary main_v24 main_v29 main_v30 (mulf : (⟨S8000000, .f32⟩ : BufTy).Contents (Elt F) → (⟨S8000000, .f32⟩ : BufTy).Contents (Elt F) → (⟨S8000000, .f32⟩ : BufTy).Contents (Elt F)),
    binary main_v30 main_v28 main_v31 (mulf : (⟨S8000000, .f32⟩ : BufTy).Contents (Elt F) → (⟨S8000000, .f32⟩ : BufTy).Contents (Elt F) → (⟨S8000000, .f32⟩ : BufTy).Contents (Elt F)),
    nullary main_cst_6 (constant S_ .f32 0x00000000#32),
    unary main_cst_6 main_v32 (broadcastInDim S500 ![] bcast_S_S500 : (⟨S_, .f32⟩ : BufTy).Contents (Elt F) → (⟨S500, .f32⟩ : BufTy).Contents (Elt F)),
    unary main_v27 main_v33 (broadcastInDim S8000000x1 ![0] bcast_S8000000_S8000000x1_0 : (⟨S8000000, .i32⟩ : BufTy).Contents (Elt F) → (⟨S8000000x1, .i32⟩ : BufTy).Contents (Elt F)),
    ternary main_v32 main_v33 main_v31 main_v34 ((fun x i u => Host.scatterAdd scatter_S500_S8000000x1_S8000000_n_0_0_1 x i u) : (⟨S500, .f32⟩ : BufTy).Contents (Elt F) → (⟨S8000000x1, .i32⟩ : BufTy).Contents (Elt F) → (⟨S8000000, .f32⟩ : BufTy).Contents (Elt F) → (⟨S500, .f32⟩ : BufTy).Contents (Elt F)),
    nullary main_cst_7 (constant S_ .f32 0x00000000#32),
    binary main_v34 main_cst_7 main_v35 ((fun x v => Host.reduceAdd x v reducesTo_S500_S_d0 h_S_) : (⟨S500, .f32⟩ : BufTy).Contents (Elt F) → (⟨S_, .f32⟩ : BufTy).Contents (Elt F) → (⟨S_, .f32⟩ : BufTy).Contents (Elt F)),
    nullary main_cst_8 (constant S_ .f32 0xBF800000#32),
    binary main_cst_8 main_v35 main_v36 (mulf : (⟨S_, .f32⟩ : BufTy).Contents (Elt F) → (⟨S_, .f32⟩ : BufTy).Contents (Elt F) → (⟨S_, .f32⟩ : BufTy).Contents (Elt F)),
    nullary main_cst_9 (constant S_ .f32 0x00000000#32),
    TRef.unary (.of main_cst_9) main_call0.v0 id,
    TRef.binary main_call0.v0 (.of main_v35) main_call0.v1 maximumf,
    binary main_v36 main_v37 main_v38 (mulf : (⟨S_, .f32⟩ : BufTy).Contents (Elt F) → (⟨S_, .f32⟩ : BufTy).Contents (Elt F) → (⟨S_, .f32⟩ : BufTy).Contents (Elt F)),
    binary main_v34 main_v34 main_v39 (mulf : (⟨S500, .f32⟩ : BufTy).Contents (Elt F) → (⟨S500, .f32⟩ : BufTy).Contents (Elt F) → (⟨S500, .f32⟩ : BufTy).Contents (Elt F)),
    nullary main_cst_10 (constant S_ .f32 0x00000000#32),
    binary main_v39 main_cst_10 main_v40 ((fun x v => Host.reduceAdd x v reducesTo_S500_S_d0 h_S_) : (⟨S500, .f32⟩ : BufTy).Contents (Elt F) → (⟨S_, .f32⟩ : BufTy).Contents (Elt F) → (⟨S_, .f32⟩ : BufTy).Contents (Elt F)),
    binary main_v38 main_v40 main_v41 (Host.divf : (⟨S_, .f32⟩ : BufTy).Contents (Elt F) → (⟨S_, .f32⟩ : BufTy).Contents (Elt F) → (⟨S_, .f32⟩ : BufTy).Contents (Elt F)),
    nullary main_cst_11 (constant S_ .f32 0x43FA0000#32),
    binary main_v41 main_cst_11 main_v42 (Host.divf : (⟨S_, .f32⟩ : BufTy).Contents (Elt F) → (⟨S_, .f32⟩ : BufTy).Contents (Elt F) → (⟨S_, .f32⟩ : BufTy).Contents (Elt F)) ]

set_option maxRecDepth 1024 in
/-- The program is that straight line: the two steps of the maximum with zero in place of its call, sequencing reassociated. -/
theorem main_eq (c : Dev nD) : main (F := F) c = seq ops := by
  simp only [main, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., reshape_bufs_sub .., reshape_bufs_sub .., unary_bufs_sub .., reshape_bufs_sub .., reshape_bufs_sub .., reshape_bufs_sub .., binary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., unary_bufs_sub .., binary_bufs_sub .., binary_bufs_sub .., binary_bufs_sub .., nullary_bufs_sub .., binary_bufs_sub .., binary_bufs_sub .., nullary_bufs_sub .., binary_bufs_sub ..⟩

/-- Every execution of the program ends with each buffer at the fold of the steps over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather Host.scatterAdd Host.reduceAdd Host.reduce in
set_option maxRecDepth 8192 in
set_option maxHeartbeats 400000 in
/-- The fold read at the scalar result is the composition of the steps' functions over the four arguments. -/
theorem out_eq (V : Valuation τ sig (Elt F)) :
    after ops V (main_v42 : DevRef τ sig)
      = Cert.RefTerm.refOut (F := F) (V (main_arg0 : DevRef τ sig)) (V (main_arg1 : DevRef τ sig))
          (V (main_arg2 : DevRef τ sig)) (V (main_arg3 : DevRef τ sig)) := by
  simp only [after_cons, after_nil]
  rfl

/-- No step writes an argument: the fold read there is what was there. -/
theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

/-- Every execution of the program ends with the scalar result at the composition of the steps' functions over
    the four argument arrays as launched, and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = Cert.RefTerm.refOut (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v42).trans (out_eq _), (h c main_arg0).trans (arg0_eq _),
      (h c main_arg1).trans (arg1_eq _), (h c main_arg2).trans (arg2_eq _), (h c main_arg3).trans (arg3_eq _)⟩)
    (run_all m ρ)

end Cert.RefRun

end
-- ==== Proof.RefVal.lean ====
/-
  The reference's result read index by index at the exact (extended-real) instance.

  The column selection reads columns 0 and 1; the repeated weights and days at flat position k are those of row k % N;
  the row-major flatten of an [N × 2] matrix at k is its entry (k / 2, k % 2); entrywise 1 / (1 + exp (−(12 · x))) is
  the logistic function of 12 · x.  Hence the sum added into day s is, over the flat positions k < 2 N with
  d (k % N) = s, of (w (k % N) · u₁ k) · σ (u₀ k), and the result is the closing expression of those 500 sums.
-/
import proofs.«416177_j73589969650309_3_alg».proof.Proof.RefTerm
import proofs.«416177_j73589969650309_3_alg».proof.Proof.Spec
import proofs.«416177_j73589969650309_3_alg».proof.Proof.LibScatterGather
import Idealize.ShloMosaic.Lib.Pipeline.Value
import Idealize.ShloMosaic.Lib.IdealHost

noncomputable section

open scoped BigOperators

namespace Cert.RefVal

open Idealize.ShloMosaic Idealize.ShloMosaic.ValueIdx Idealize.ShloMosaic.StableHlo.Predicate
open Cert.ReferenceIdeal Cert.RefTerm

/-- Columns gathered from an [N × D] matrix at an [n × 1] column of column numbers: entry (p, f) of the result is the
    matrix's entry (p, column f's number read signed and clamped into [0, D − 1]). -/
theorem gather_cols {α : Type} {N D n w : ℕ} (d : GatherDims ⟨2, ![N, D]⟩ ⟨2, ![n, 1]⟩ ⟨2, ![N, n]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![N, 1])
    (x : (⟨2, ![N, D]⟩ : Shape).Idx → α) (idx : IVec ⟨2, ![n, 1]⟩ w) (p : Fin N) (f : Fin n) (hD : 0 < D) :
    Host.gather d x idx (ix2 p f) = x (ix2 p (⟨min (idx (ixP f)).toInt.toNat (D - 1), by omega⟩ : Fin D)) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil]
    unfold GatherDims.start
    rw [dif_neg (show (0 : Fin 2) ∉ [1] by decide)]
    simp only [Nat.zero_add]
    rfl
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![N, n]⟩) [0] [1] [] [] [1] 1 ![N, 1] wf).siIdx (ix2 p f) c = ixP f := by
      intro c
      funext b; refine Fin.ext ?_
      match b with
      | ⟨0, _⟩ => rfl
      | ⟨1, _⟩ => exact Nat.lt_one_iff.mp c.isLt
    rw [hsi]
    rfl

/-- A length-N vector repeated twice, at flat position k: the vector at k % N. -/
theorem tile2_apply {α : Type} [Facts] (v : S4000000.Idx → α) (k : Fin 8000000) :
    tile2 v (ix1 k) = v (ix1 (⟨k.val % 4000000, Nat.mod_lt _ (by omega)⟩ : Fin 4000000)) := by
  unfold tile2
  refine (shapeCast_apply _ _ (ix1 k)
    (ix2 (⟨k.val / 4000000, by omega⟩ : Fin 2) (⟨k.val % 4000000, Nat.mod_lt _ (by omega)⟩ : Fin 4000000)) ?_).trans ?_
  · rw [Shape.rowMajor_val_two, Shape.rowMajor_val_one]
    show k.val / 4000000 * 4000000 + k.val % 4000000 = k.val
    omega
  refine (broadcastInDim_apply _ _ _ _
    (ix2 (0 : Fin 1) (⟨k.val % 4000000, Nat.mod_lt _ (by omega)⟩ : Fin 4000000)) ?_).trans ?_
  · intro a
    match a with
    | ⟨0, _⟩ => rfl
    | ⟨1, _⟩ => rfl
  refine shapeCast_apply _ _ _ (ix1 (⟨k.val % 4000000, Nat.mod_lt _ (by omega)⟩ : Fin 4000000)) ?_
  rw [Shape.rowMajor_val_one, Shape.rowMajor_val_two]
  show k.val % 4000000 = 0 * 4000000 + k.val % 4000000
  omega

/-- The row-major flatten of an [N × 2] matrix at flat position k: the matrix at (k / 2, k % 2). -/
theorem flat_apply {α : Type} [Facts] (m : S4000000x2.Idx → α) (k : Fin 8000000) :
    flat m (ix1 k) = m (ix2 (⟨k.val / 2, by omega⟩ : Fin 4000000) (⟨k.val % 2, by omega⟩ : Fin 2)) := by
  unfold flat
  refine shapeCast_apply _ _ _ _ ?_
  rw [Shape.rowMajor_val_two, Shape.rowMajor_val_one]
  show k.val / 2 * 2 + k.val % 2 = k.val
  omega

/-- The column numbers are 0 and 1. -/
theorem colIdx_apply [Facts] (f : Fin 2) : colIdx (ixP f) = BitVec.ofNat 32 f.val := by
  have h : colIdx (ixP f) = select (cmpi .slt cvec (fun _ => 0#32)) (addi cvec (fun _ => 5#32)) cvec (ix1 f) := by
    unfold colIdx
    refine broadcastInDim_apply _ _ _ _ (ix1 f) ?_
    intro a
    match a with
    | ⟨0, _⟩ => rfl
  rw [h]
  have hc : ∀ g : Fin 2, cvec (ix1 g) = BitVec.ofNat 32 g.val := by
    intro g
    have hr : S2.rowMajor (ix1 g) = g := Fin.ext (Shape.rowMajor_val_one _)
    show lit0 (S2.rowMajor (ix1 g)) = _
    rw [hr]
    match g with
    | ⟨0, _⟩ => rfl
    | ⟨1, _⟩ => rfl
  show Scalar.select (IntOp.cmpi .slt (cvec (ix1 f)) 0#32) (IntOp.addi (cvec (ix1 f)) 5#32) (cvec (ix1 f)) = _
  rw [hc]
  match f with
  | ⟨0, _⟩ =>
    show Scalar.select (IntOp.cmpi .slt (BitVec.ofNat 32 0) 0#32) (IntOp.addi (BitVec.ofNat 32 0) 5#32) (BitVec.ofNat 32 0)
      = BitVec.ofNat 32 0
    decide
  | ⟨1, _⟩ =>
    show Scalar.select (IntOp.cmpi .slt (BitVec.ofNat 32 1) 0#32) (IntOp.addi (BitVec.ofNat 32 1) 5#32) (BitVec.ofNat 32 1)
      = BitVec.ofNat 32 1
    decide

/-- The selected columns are the first two: entry (p, f) of the selection is the matrix's entry (p, f). -/
theorem cols_apply [Facts] (a : FVec Ideal S4000000x5 .f32) (p : Fin 4000000) (f : Fin 2) :
    cols (F := Ideal) a (ix2 p f) = a (ix2 p (⟨f.val, by omega⟩ : Fin 5)) := by
  unfold cols
  rw [gather_cols (N := 4000000) (D := 5) (n := 2) _ rfl rfl rfl rfl rfl rfl rfl a colIdx p f (by decide)]
  have h : min (colIdx (ixP f)).toInt.toNat (5 - 1) = f.val := by
    rw [colIdx_apply]
    match f with
    | ⟨0, _⟩ =>
      show min (BitVec.ofNat 32 0).toInt.toNat (5 - 1) = 0
      decide
    | ⟨1, _⟩ =>
      show min (BitVec.ofNat 32 1).toInt.toNat (5 - 1) = 1
      decide
  exact congrArg (fun q : Fin 5 => a (ix2 p q)) (Fin.ext h)

/-- Entrywise, 1 / (1 + exp (−(12 · x))) is the logistic function of 12 · x. -/
theorem logi_apply [Facts] (x : FVec Ideal S4000000x2 .f32) (i : S4000000x2.Idx) :
    logi (F := Ideal) x i = Cert.Spec.sg (x i) := by
  show Ideal.div (Ideal.ofBits .f32 0x3F800000#32)
      (Ideal.ofBits .f32 0x3F800000#32 + Ideal.exp (-(Ideal.ofBits .f32 0x41400000#32 * x i))) = _
  rw [Ideal.ofBits_one_f32]
  rfl

/-- The repeated days as a column, at row k: the day of row k % N. -/
theorem dayCol_apply [Facts] (d : IVec S4000000 32) (k : Fin 8000000) :
    dayCol d (ixP k) = d (ix1 (⟨k.val % 4000000, Nat.mod_lt _ (by omega)⟩ : Fin 4000000)) := by
  unfold dayCol
  refine (broadcastInDim_apply _ _ _ _ (ix1 k) ?_).trans (tile2_apply d k)
  intro a
  match a with
  | ⟨0, _⟩ => rfl

/-- The product at flat position k: (w (k % N) · u₁ k) · σ (u₀ k). -/
theorem prods_apply [Facts] (a0 a1 : FVec Ideal S4000000x5 .f32) (a2 : FVec Ideal S4000000 .f32) (k : Fin 8000000) :
    prods (F := Ideal) a0 a1 a2 (ix1 k) = Cert.Spec.prod a0 a1 a2 k := by
  show (tile2 a2 (ix1 k) * flat (cols (F := Ideal) a1) (ix1 k)) * flat (logi (F := Ideal) (cols (F := Ideal) a0)) (ix1 k) = _
  rw [tile2_apply, flat_apply, flat_apply, logi_apply, cols_apply, cols_apply]
  rfl

/-- The 500 day sums: day s collects the flat positions k whose row k % N has day s. -/
theorem refPi_eq [Facts] (a0 a1 : FVec Ideal S4000000x5 .f32) (a2 : FVec Ideal S4000000 .f32) (a3 : IVec S4000000 32) :
    refPi (F := Ideal) a0 a1 a2 a3 = Cert.Spec.PiR a0 a1 a2 a3 := by
  funext s
  obtain ⟨i, rfl⟩ : ∃ i : Fin 500, s = ix1 i := ⟨s 0, eq_ix1 s⟩
  unfold refPi
  rw [Cert.LibSG.scatterAdd_flat (N := 500) (n := 8000000) _ rfl rfl rfl rfl]
  rw [show broadcastInDim S500 ![] Facts₀.bcast_S_S500 (constant (F := Ideal) S_ .f32 0x00000000#32) (ix1 i) = 0
    from Ideal.ofBits_zero_f32, zero_add]
  show _ = ∑ k ∈ Finset.univ.filter (fun k : Fin 8000000 =>
      (a3 (ix1 (⟨k.val % 4000000, Nat.mod_lt _ (by omega)⟩ : Fin 4000000))).toInt = ((i.val : ℕ) : ℤ)), Cert.Spec.prod a0 a1 a2 k
  refine Finset.sum_congr (Finset.filter_congr fun k _ => by rw [dayCol_apply]) fun k _ => prods_apply a0 a1 a2 k

theorem refOut_eq [Cert.ReferenceIdeal.Facts] (a0 a1 : FVec Ideal Cert.ReferenceIdeal.S4000000x5 .f32) (a2 : FVec Ideal Cert.ReferenceIdeal.S4000000 .f32) (a3 : IVec Cert.ReferenceIdeal.S4000000 32) :
    Cert.RefTerm.refOut (F := Ideal) a0 a1 a2 a3
      = Cert.Spec.tail Cert.ReferenceIdeal.Facts₀.reducesTo_S500_S_d0 Cert.ReferenceIdeal.Facts₀.h_S_ (Cert.Spec.PiR a0 a1 a2 a3) := by
  show Cert.Spec.tail Cert.ReferenceIdeal.Facts₀.reducesTo_S500_S_d0 Cert.ReferenceIdeal.Facts₀.h_S_ (refPi (F := Ideal) a0 a1 a2 a3) = _
  rw [refPi_eq]

end Cert.RefVal

end
-- ==== Proof.SpecLaw.lean ====
/-
  The law joining the two arrangements of the day sums.

  A sum over the 2 N flat positions k splits into the positions k = e and k = N + e, e < N; in both
  k % N = e, so the day condition on k is the day condition on e.  For one row e the two arrangements
  differ by distributivity,  w · (σ₀ · t₀ + σ₁ · t₁) = (w · t₀) · σ₀ + (w · t₁) · σ₁,  which holds for
  finite numbers: the weights and the matrix entries are finite by hypothesis, the logistic function of
  a finite number is finite, and the factor twelve is finite.
-/
import proofs.«416177_j73589969650309_3_alg».proof.Proof.Spec
import Mathlib.Algebra.BigOperators.Fin

noncomputable section

open scoped BigOperators

namespace Cert.Spec

open Idealize.ShloMosaic Idealize.ShloMosaic.ValueIdx

/-- A sum over 2 N positions is the sum over e < N of the terms at e and at N + e. -/
theorem sum_split (f : Fin 8000000 → EReal) :
    ∑ k, f k = ∑ e : Fin 4000000, (f ⟨e.val, by omega⟩ + f ⟨4000000 + e.val, by omega⟩) := by
  rw [Finset.sum_add_distrib]
  exact Fin.sum_univ_add (M := EReal) (a := 4000000) (b := 4000000) f

/-- The factor inside the logistic function is a finite number. -/
theorem twelve_real : ∃ c : ℝ, Ideal.ofBits .f32 0x41400000#32 = (c : EReal) := by
  refine ⟨12, ?_⟩
  simp [Ideal.ofBits, Ideal.ieee, -EReal.coe_mul]
  norm_num

/-- The logistic function of twelve times a finite number is finite. -/
theorem sg_real (x : ℝ) : ∃ r : ℝ, sg (x : EReal) = (r : EReal) := by
  obtain ⟨c, hc⟩ := twelve_real
  unfold sg
  rw [hc, ← EReal.coe_mul, Ideal.logistic_coe]
  exact ⟨_, rfl⟩

/-- An entry of the flatten of a finite matrix is finite. -/
theorem flat2_real (a : FVec Ideal SA .f32) (h : ∀ i, ∃ r : ℝ, a i = (r : EReal)) (k : Fin 8000000) :
    ∃ r : ℝ, flat2 a k = (r : EReal) := h _

/-- Distributivity for finite numbers, in the two arrangements' shapes. -/
theorem distrib_real (w s0 t0 s1 t1 : ℝ) :
    (w : EReal) * ((s0 : EReal) * (t0 : EReal) + (s1 : EReal) * (t1 : EReal))
      = ((w : EReal) * (t0 : EReal)) * (s0 : EReal) + ((w : EReal) * (t1 : EReal)) * (s1 : EReal) := by
  simp only [← EReal.coe_mul, ← EReal.coe_add]
  congr 1
  ring

/-- Row e's contribution is the sum of the products at the flat positions e and N + e. -/
theorem contrib_eq (a0 a1 : FVec Ideal SA .f32) (w : FVec Ideal SW .f32)
    (h0 : ∀ i, ∃ r : ℝ, a0 i = (r : EReal)) (h1 : ∀ i, ∃ r : ℝ, a1 i = (r : EReal))
    (hw : ∀ i, ∃ r : ℝ, w i = (r : EReal)) (e : Fin 4000000) :
    contrib a0 a1 w e = prod a0 a1 w ⟨e.val, by omega⟩ + prod a0 a1 w ⟨4000000 + e.val, by omega⟩ := by
  have e1 : ∀ h, (⟨e.val % 4000000, h⟩ : Fin 4000000) = e := fun h => Fin.ext (Nat.mod_eq_of_lt e.isLt)
  have e2 : ∀ h, (⟨(4000000 + e.val) % 4000000, h⟩ : Fin 4000000) = e := fun h => Fin.ext (by
    have := e.isLt
    show (4000000 + e.val) % 4000000 = e.val
    omega)
  unfold contrib prod
  simp only [e1, e2]
  obtain ⟨rw, hrw⟩ := hw (ix1 e)
  obtain ⟨x0, hx0⟩ := flat2_real a0 h0 ⟨e.val, by omega⟩
  obtain ⟨x1, hx1⟩ := flat2_real a0 h0 ⟨4000000 + e.val, by omega⟩
  obtain ⟨t0, ht0⟩ := flat2_real a1 h1 ⟨e.val, by omega⟩
  obtain ⟨t1, ht1⟩ := flat2_real a1 h1 ⟨4000000 + e.val, by omega⟩
  obtain ⟨s0, hs0⟩ := sg_real x0
  obtain ⟨s1, hs1⟩ := sg_real x1
  rw [hrw, hx0, hx1, ht0, ht1, hs0, hs1]
  exact distrib_real rw s0 t0 s1 t1

theorem PiK_eq_PiR (a0 a1 : FVec Ideal SA .f32) (w : FVec Ideal SW .f32) (d : IVec SW 32)
    (h0 : ∀ i, ∃ r : ℝ, a0 i = (r : EReal)) (h1 : ∀ i, ∃ r : ℝ, a1 i = (r : EReal))
    (hw : ∀ i, ∃ r : ℝ, w i = (r : EReal)) :
    PiK a0 a1 w d = PiR a0 a1 w d := by
  funext s
  unfold PiK PiR
  rw [Finset.sum_filter, Finset.sum_filter, sum_split]
  refine Finset.sum_congr rfl (fun e _ => ?_)
  have e1 : ∀ h, (⟨e.val % 4000000, h⟩ : Fin 4000000) = e := fun h => Fin.ext (Nat.mod_eq_of_lt e.isLt)
  have e2 : ∀ h, (⟨(4000000 + e.val) % 4000000, h⟩ : Fin 4000000) = e := fun h => Fin.ext (by
    have := e.isLt
    show (4000000 + e.val) % 4000000 = e.val
    omega)
  simp only [e1, e2]
  by_cases hc : (d (ix1 e)).toInt = (((s 0).val : ℕ) : ℤ)
  · simp only [hc, if_true]
    exact contrib_eq a0 a1 w h0 h1 hw e
  · simp only [hc, if_false, add_zero]

end Cert.Spec

end
-- ==== Proof.PreFinite.lean ====
import proofs.«416177_j73589969650309_3_alg».proof.Pre_finite_inputs
import Idealize.ShloMosaic.PureOps.Ideal
import Idealize.ShloMosaic.Lib.ReduceAll
import Idealize.ShloMosaic.Lib.ValueIdx

/-!
  The precondition, read back: each of the three float arrays is compared elementwise, in absolute
  value, against plus infinity, and the conjunction over all entries is true. Hence every entry is a
  real number (neither infinity).
-/

namespace Cert.PreFinite
open Idealize.ShloMosaic

/-- The 32-bit word with exponent field all ones and zero fraction denotes plus infinity. -/
theorem ofBits_inf : Ideal.ofBits .f32 0x7F800000#32 = (⊤ : EReal) := by
  simp [Ideal.ofBits, Ideal.ieee]

/-- An extended real whose absolute value, max x (-x), lies strictly below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Elementwise step: where the comparison |x i| < c i answers true and c i is plus infinity, x i is real. -/
theorem real_of_cmp {s : Shape} (x c : FVec Ideal s .f32) (i : s.Idx) (hc : c i = (⊤ : EReal))
    (h : cmpf .olt (Host.absf x) c i = 1#1) : ∃ r : ℝ, x i = (r : EReal) := by
  have h2 : Ideal.cmp .olt (max (x i) (-(x i))) (c i) = 1#1 := h
  rw [hc] at h2
  refine real_of_abs_lt_top _ ?_
  by_contra hn
  simp [Ideal.cmp, hn] at h2

/-- The rank-0 shape has exactly one index. -/
instance : Subsingleton Cert.Pre_finite_inputs.S_.Idx := ⟨fun a b => funext fun d => d.elim0⟩

theorem finite_of_pre [hP : Cert.Pre_finite_inputs.Facts]
    (x0 x1 : FVec Ideal Cert.Pre_finite_inputs.S4000000x5 .f32) (x2 : FVec Ideal Cert.Pre_finite_inputs.S4000000 .f32)
    (x3 : IVec Cert.Pre_finite_inputs.S4000000 32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h' := congrFun h (fun d => d.elim0)
  dsimp only [Cert.Pre_finite_inputs.fn] at h'
  obtain ⟨h01, h2⟩ := IntOp.andi_eq_one.1 h'
  obtain ⟨h0, h1⟩ := IntOp.andi_eq_one.1 h01
  refine ⟨fun i => ?_, fun i => ?_, fun i => ?_⟩
  · exact real_of_cmp x0 _ i ofBits_inf (Host.reduce_andi_all _ _ _ _ _ h0 i)
  · exact real_of_cmp x1 _ i ofBits_inf (Host.reduce_andi_all _ _ _ _ _ h1 i)
  · exact real_of_cmp x2 _ i ofBits_inf (Host.reduce_andi_all _ _ _ _ _ h2 i)

end Cert.PreFinite
-- ==== Proof.lean ====
/-
  A weighted, day-binned utility and its closing ratio, computed two ways.

  Let N = 4000000, let u₀ k and u₁ k be entry k of the row-major flatten of the first two columns of the two [N × 5]
  argument matrices (entry (k / 2, k % 2)), let w be the weights, d the days, and σ x the logistic function of 12 · x.

  * The kernel program splits the 2 N flat entries into halves e and N + e, computes for every row e < N
        w e · (σ (u₀ e) · u₁ e + σ (u₀ (N + e)) · u₁ (N + e))
    in blocks of 2048 × 128 entries (sixteen blocks; the last runs past the array's end and only its rows inside the
    array are written back), and adds row e's number into day d e.
  * The reference repeats weights and days twice and adds, for every flat position k < 2 N, the number
        (w (k % N) · u₁ k) · σ (u₀ k)   into day d (k % N),
    with σ written out as 1 / (1 + exp (−(12 · x))).

  A day outside [0, 500) receives nothing in either.  Splitting k into e and N + e, the two day sums agree once
  w · (a + b) = w · a + w · b, which on the extended reals needs the numbers to be finite: the precondition says the
  float arguments are, and the logistic function of a real is a real.  Both programs then apply the same closing
  expression to the 500 day sums, so their results are equal.  Each program also runs to its end without a fault
  and leaves its four arguments as they were; the idealized kernel is the kernel's own text, so nothing is owed for
  the passage from one to the other.
-/
import proofs.«416177_j73589969650309_3_alg».proof.Defs
import proofs.«416177_j73589969650309_3_alg».proof.Proof.Gen.Kernel
import proofs.«416177_j73589969650309_3_alg».proof.Proof.Gen.KernelIdeal
import proofs.«416177_j73589969650309_3_alg».proof.Proof.Gen.ReferenceIdeal
import proofs.«416177_j73589969650309_3_alg».proof.Proof.Gen.Pre_finite_inputs
import proofs.«416177_j73589969650309_3_alg».proof.Proof.BodyKIII
import proofs.«416177_j73589969650309_3_alg».proof.Proof.KerRun
import proofs.«416177_j73589969650309_3_alg».proof.Proof.KerVal
import proofs.«416177_j73589969650309_3_alg».proof.Proof.RefRun
import proofs.«416177_j73589969650309_3_alg».proof.Proof.RefVal
import proofs.«416177_j73589969650309_3_alg».proof.Proof.SpecLaw
import proofs.«416177_j73589969650309_3_alg».proof.Proof.PreFinite

noncomputable section

namespace Cert.Proof

open Idealize.ShloMosaic Idealize.SL.Sem

/-- The word-level kernel program runs to its end and keeps its arguments. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- So does the reference: its run, the result forgotten. -/
theorem frame_ri : Cert.frame_ReferenceIdeal := fun m ρ _ =>
  (θ_run Cert.ReferenceIdeal.defs _ _).mono (fun _ h c => (h c).2) (Cert.RefRun.run (F := Ideal) m ρ)

/-- From memories that agree on the arguments, both programs end with the same result: each result is the closing
    expression of its day sums, and the day sums agree because the float arguments are finite. -/
theorem algebraic : Cert.algebraic_KernelIdeal_ReferenceIdeal := by
  intro m ρ m' ρ' hpre hagree
  refine ⟨fun c => Cert.KerTerm.kerOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KerRun.run (F := Ideal) m ρ, ?_⟩
  refine (θ_run Cert.ReferenceIdeal.defs _ _).mono (fun _ h c => ⟨(h c).1.trans ?_, (h c).2⟩)
    (Cert.RefRun.run (F := Ideal) m' ρ')
  obtain ⟨f0, f1, f2⟩ := Cert.PreFinite.finite_of_pre _ _ _ _ (hpre c)
  rw [(hagree c).1, (hagree c).2.1, (hagree c).2.2.1, (hagree c).2.2.2, Cert.RefVal.refOut_eq]
  beta_reduce
  rw [Cert.KerVal.kerOut_eq, Cert.Spec.PiK_eq_PiR _ _ _ _ f0 f1 f2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
